-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x11 : Shape := ⟨2, ![100000, 11]⟩
abbrev S2x3200000 : Shape := ⟨2, ![2, 3200000]⟩
abbrev S11x32 : Shape := ⟨2, ![11, 32]⟩
abbrev S32 : Shape := ⟨1, ![32]⟩
abbrev S32x32 : Shape := ⟨2, ![32, 32]⟩
abbrev S32x64 : Shape := ⟨2, ![32, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x11 : S_.BroadcastsInDim S100000x11 (![] : Fin 0 → Fin S100000x11.rank)
  reducesTo_S100000x11_S_d0_1 : S100000x11.ReducesTo [0, 1] S_
  h_S_ : 0 < S_.numel
  bcast_S_S11x32 : S_.BroadcastsInDim S11x32 (![] : Fin 0 → Fin S11x32.rank)
  reducesTo_S11x32_S_d0_1 : S11x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg19 : FVec F S1 .f32) (main_v83 : IVec S_ 1) (main_v84 : FVec F S64x1 .f32) (main_cst_32 : FVec F S_ .f32) : IVec S_ 1 :=
  let main_v85 : FVec F S64x1 .f32 := broadcastInDim S64x1 ![] bcast_S_S64x1 main_cst_32
  let main_v86 : IVec S64x1 1 := cmpf .olt main_v84 main_v85
  let main_c_33 : IVec S_ 1 := constantI S_ 1 1#1
  let main_v87 : IVec S_ 1 := (fun x v => Host.reduce IntOp.andi x v reducesTo_S64x1_S_d0_1 h_S_) main_v86 main_c_33
  let main_v88 : IVec S_ 1 := andi main_v83 main_v87
  let main_v89 : FVec F S1 .f32 := Host.absf main_arg19
  let main_cst_34 : FVec F S_ .f32 := constant S_ .f32 0x7F800000#32
  let main_v90 : FVec F S1 .f32 := broadcastInDim S1 ![] bcast_S_S1 main_cst_34
  let main_v91 : IVec S1 1 := cmpf .olt main_v89 main_v90
  let main_c_35 : IVec S_ 1 := constantI S_ 1 1#1
  let main_v92 : IVec S_ 1 := (fun x v => Host.reduce IntOp.andi x v reducesTo_S1_S_d0 h_S_) main_v91 main_c_35
  let main_v93 : IVec S_ 1 := andi main_v88 main_v92
  main_v93

def fn_part4 {F : FTy → Type} [FloatOps F] (main_arg15 : FVec F S32 .f32) (main_arg16 : FVec F S32x64 .f32) (main_arg17 : FVec F S64 .f32) (main_arg18 : FVec F S64x1 .f32) (main_arg19 : FVec F S1 .f32) (main_v63 : IVec S_ 1) (main_v67 : IVec S_ 1) : IVec S_ 1 :=
  let main_v68 : IVec S_ 1 := andi main_v63 main_v67
  let main_v69 : FVec F S32 .f32 := Host.absf main_arg15
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S32x64 .f32 := Host.absf main_arg16
  let main_cst_28 : FVec F S_ .f32 := constant S_ .f32 0x7F800000#32
  let main_v75 : FVec F S32x64 .f32 := broadcastInDim S32x64 ![] bcast_S_S32x64 main_cst_28
  let main_v76 : IVec S32x64 1 := cmpf .olt main_v74 main_v75
  let main_c_29 : IVec S_ 1 := constantI S_ 1 1#1
  let main_v77 : IVec S_ 1 := (fun x v => Host.reduce IntOp.andi x v reducesTo_S32x64_S_d0_1 h_S_) main_v76 main_c_29
  let main_v78 : IVec S_ 1 := andi main_v73 main_v77
  let main_v79 : FVec F S64 .f32 := Host.absf main_arg17
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x1 .f32 := Host.absf main_arg18
  let main_cst_32 : FVec F S_ .f32 := constant S_ .f32 0x7F800000#32
  fn_part5 (F := F) main_arg19 main_v83 main_v84 main_cst_32

def fn_part3 {F : FTy → Type} [FloatOps F] (main_arg12 : FVec F S32 .f32) (main_arg13 : FVec F S32 .f32) (main_arg14 : FVec F S32 .f32) (main_arg15 : FVec F S32 .f32) (main_arg16 : FVec F S32x64 .f32) (main_arg17 : FVec F S64 .f32) (main_arg18 : FVec F S64x1 .f32) (main_arg19 : FVec F S1 .f32) (main_v48 : IVec S_ 1) (main_v49 : FVec F S32x32 .f32) (main_v50 : FVec F S32x32 .f32) : IVec S_ 1 :=
  let main_v51 : IVec S32x32 1 := cmpf .olt main_v49 main_v50
  let main_c_19 : IVec S_ 1 := constantI S_ 1 1#1
  let main_v52 : IVec S_ 1 := (fun x v => Host.reduce IntOp.andi x v reducesTo_S32x32_S_d0_1 h_S_) main_v51 main_c_19
  let main_v53 : IVec S_ 1 := andi main_v48 main_v52
  let main_v54 : FVec F S32 .f32 := Host.absf main_arg12
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32 .f32 := Host.absf main_arg13
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32 .f32 := Host.absf main_arg14
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg15 main_arg16 main_arg17 main_arg18 main_arg19 main_v63 main_v67

def fn_part2 {F : FTy → Type} [FloatOps F] (main_arg8 : FVec F S32 .f32) (main_arg9 : FVec F S32x32 .f32) (main_arg10 : FVec F S32 .f32) (main_arg11 : FVec F S32x32 .f32) (main_arg12 : FVec F S32 .f32) (main_arg13 : FVec F S32 .f32) (main_arg14 : FVec F S32 .f32) (main_arg15 : FVec F S32 .f32) (main_arg16 : FVec F S32x64 .f32) (main_arg17 : FVec F S64 .f32) (main_arg18 : FVec F S64x1 .f32) (main_arg19 : FVec F S1 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x32 .f32 := Host.absf main_arg9
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  let main_v44 : FVec F S32 .f32 := Host.absf main_arg10
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x32 .f32 := Host.absf main_arg11
  let main_cst_18 : FVec F S_ .f32 := constant S_ .f32 0x7F800000#32
  let main_v50 : FVec F S32x32 .f32 := broadcastInDim S32x32 ![] bcast_S_S32x32 main_cst_18
  fn_part3 (F := F) main_arg12 main_arg13 main_arg14 main_arg15 main_arg16 main_arg17 main_arg18 main_arg19 main_v48 main_v49 main_v50

def fn_part1 {F : FTy → Type} [FloatOps F] (main_arg5 : FVec F S32 .f32) (main_arg6 : FVec F S32 .f32) (main_arg7 : FVec F S32 .f32) (main_arg8 : FVec F S32 .f32) (main_arg9 : FVec F S32x32 .f32) (main_arg10 : FVec F S32 .f32) (main_arg11 : FVec F S32x32 .f32) (main_arg12 : FVec F S32 .f32) (main_arg13 : FVec F S32 .f32) (main_arg14 : FVec F S32 .f32) (main_arg15 : FVec F S32 .f32) (main_arg16 : FVec F S32x64 .f32) (main_arg17 : FVec F S64 .f32) (main_arg18 : FVec F S64x1 .f32) (main_arg19 : FVec F S1 .f32) (main_v13 : IVec S_ 1) (main_v16 : IVec S11x32 1) : IVec S_ 1 :=
  let main_c_5 : IVec S_ 1 := constantI S_ 1 1#1
  let main_v17 : IVec S_ 1 := (fun x v => Host.reduce IntOp.andi x v reducesTo_S11x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_v33

def fn {F : FTy → Type} [FloatOps F] (main_arg0 : FVec F S100000x11 .f32) (main_arg1 : IVec S2x3200000 32) (main_arg2 : FVec F S11x32 .f32) (main_arg3 : FVec F S32 .f32) (main_arg4 : FVec F S11x32 .f32) (main_arg5 : FVec F S32 .f32) (main_arg6 : FVec F S32 .f32) (main_arg7 : FVec F S32 .f32) (main_arg8 : FVec F S32 .f32) (main_arg9 : FVec F S32x32 .f32) (main_arg10 : FVec F S32 .f32) (main_arg11 : FVec F S32x32 .f32) (main_arg12 : FVec F S32 .f32) (main_arg13 : FVec F S32 .f32) (main_arg14 : FVec F S32 .f32) (main_arg15 : FVec F S32 .f32) (main_arg16 : FVec F S32x64 .f32) (main_arg17 : FVec F S64 .f32) (main_arg18 : FVec F S64x1 .f32) (main_arg19 : FVec F S1 .f32) : IVec S_ 1 :=
  let main_v0 : FVec F S100000x11 .f32 := Host.absf main_arg0
  let main_cst : FVec F S_ .f32 := constant S_ .f32 0x7F800000#32
  let main_v1 : FVec F S100000x11 .f32 := broadcastInDim S100000x11 ![] bcast_S_S100000x11 main_cst
  let main_v2 : IVec S100000x11 1 := cmpf .olt main_v0 main_v1
  let main_c : IVec S_ 1 := constantI S_ 1 1#1
  let main_v3 : IVec S_ 1 := (fun x v => Host.reduce IntOp.andi x v reducesTo_S100000x11_S_d0_1 h_S_) main_v2 main_c
  let main_v4 : FVec F S11x32 .f32 := Host.absf main_arg2
  let main_cst_0 : FVec F S_ .f32 := constant S_ .f32 0x7F800000#32
  let main_v5 : FVec F S11x32 .f32 := broadcastInDim S11x32 ![] bcast_S_S11x32 main_cst_0
  let main_v6 : IVec S11x32 1 := cmpf .olt main_v4 main_v5
  let main_c_1 : IVec S_ 1 := constantI S_ 1 1#1
  let main_v7 : IVec S_ 1 := (fun x v => Host.reduce IntOp.andi x v reducesTo_S11x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S11x32 .f32 := Host.absf main_arg4
  let main_cst_4 : FVec F S_ .f32 := constant S_ .f32 0x7F800000#32
  let main_v15 : FVec F S11x32 .f32 := broadcastInDim S11x32 ![] bcast_S_S11x32 main_cst_4
  let main_v16 : IVec S11x32 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_v13 main_v16
-- ==== Kernel.lean ====
abbrev S100000x11 : Shape := ⟨2, ![100000, 11]⟩
abbrev S2x3200000 : Shape := ⟨2, ![2, 3200000]⟩
abbrev S11x32 : Shape := ⟨2, ![11, 32]⟩
abbrev S32 : Shape := ⟨1, ![32]⟩
abbrev S32x32 : Shape := ⟨2, ![32, 32]⟩
abbrev S32x64 : Shape := ⟨2, ![32, 64]⟩
abbrev S64 : Shape := ⟨1, ![64]⟩
abbrev S64x1 : Shape := ⟨2, ![64, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S3200000x11 : Shape := ⟨2, ![3200000, 11]⟩
abbrev S100000x1 : Shape := ⟨2, ![100000, 1]⟩
abbrev S1x32 : Shape := ⟨2, ![1, 32]⟩
abbrev S100000x32 : Shape := ⟨2, ![100000, 32]⟩
abbrev S2000x11 : Shape := ⟨2, ![2000, 11]⟩
abbrev S2000x32 : Shape := ⟨2, ![2000, 32]⟩
abbrev S3200000x32 : Shape := ⟨2, ![3200000, 32]⟩
abbrev S1x64 : Shape := ⟨2, ![1, 64]⟩
abbrev S1x1 : Shape := ⟨2, ![1, 1]⟩
abbrev S2000x1 : Shape := ⟨2, ![2000, 1]⟩
abbrev S2000x64 : Shape := ⟨2, ![2000, 64]⟩

abbrev nBuf : Space → Nat
  | .hbm => 83
  | .vmem => 30
  | .smem => 0
  | _ => 0

abbrev bufTy : (tb : Table) → Fin (tcTables nBuf tb) → BufTy
  | .hbm, ⟨0, _⟩ => ⟨S100000x11, .f32⟩
  | .hbm, ⟨1, _⟩ => ⟨S2x3200000, .i32⟩
  | .hbm, ⟨2, _⟩ => ⟨S11x32, .f32⟩
  | .hbm, ⟨3, _⟩ => ⟨S32, .f32⟩
  | .hbm, ⟨4, _⟩ => ⟨S11x32, .f32⟩
  | .hbm, ⟨5, _⟩ => ⟨S32, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S32x32, .f32⟩
  | .hbm, ⟨10, _⟩ => ⟨S32, .f32⟩
  | .hbm, ⟨11, _⟩ => ⟨S32x32, .f32⟩
  | .hbm, ⟨12, _⟩ => ⟨S32, .f32⟩
  | .hbm, ⟨13, _⟩ => ⟨S32, .f32⟩
  | .hbm, ⟨14, _⟩ => ⟨S32, .f32⟩
  | .hbm, ⟨15, _⟩ => ⟨S32, .f32⟩
  | .hbm, ⟨16, _⟩ => ⟨S32x64, .f32⟩
  | .hbm, ⟨17, _⟩ => ⟨S64, .f32⟩
  | .hbm, ⟨18, _⟩ => ⟨S64x1, .f32⟩
  | .hbm, ⟨19, _⟩ => ⟨S1, .f32⟩
  | .hbm, ⟨20, _⟩ => ⟨S1x3200000, .i32⟩
  | .hbm, ⟨21, _⟩ => ⟨S3200000, .i32⟩
  | .hbm, ⟨22, _⟩ => ⟨S1x3200000, .i32⟩
  | .hbm, ⟨23, _⟩ => ⟨S3200000, .i32⟩
  | .hbm, ⟨24, _⟩ => ⟨S_, .f32⟩
  | .hbm, ⟨25, _⟩ => ⟨S3200000, .f32⟩
  | .hbm, ⟨26, _⟩ => ⟨S_, .f32⟩
  | .hbm, ⟨27, _⟩ => ⟨S100000, .f32⟩
  | .hbm, ⟨28, _⟩ => ⟨S3200000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S_, .i32⟩
  | .hbm, ⟨37, _⟩ => ⟨S3200000, .i32⟩
  | .hbm, ⟨38, _⟩ => ⟨S3200000, .i1⟩
  | .hbm, ⟨39, _⟩ => ⟨S_, .i32⟩
  | .hbm, ⟨40, _⟩ => ⟨S3200000, .i32⟩
  | .hbm, ⟨41, _⟩ => ⟨S3200000, .i32⟩
  | .hbm, ⟨42, _⟩ => ⟨S3200000, .i32⟩
  | .hbm, ⟨43, _⟩ => ⟨S3200000x1, .i32⟩
  | .hbm, ⟨44, _⟩ => ⟨S3200000x11, .f32⟩
  | .hbm, ⟨45, _⟩ => ⟨S_, .f32⟩
  | .hbm, ⟨46, _⟩ => ⟨S100000x11, .f32⟩
  | .hbm, ⟨47, _⟩ => ⟨S3200000x1, .i32⟩
  | .hbm, ⟨48, _⟩ => ⟨S100000x11, .f32⟩
  | .hbm, ⟨49, _⟩ => ⟨S100000x1, .f32⟩
  | .hbm, ⟨50, _⟩ => ⟨S100000x11, .f32⟩
  | .hbm, ⟨51, _⟩ => ⟨S100000x11, .f32⟩
  | .hbm, ⟨52, _⟩ => ⟨S1x32, .f32⟩
  | .hbm, ⟨53, _⟩ => ⟨S1x32, .f32⟩
  | .hbm, ⟨54, _⟩ => ⟨S1x32, .f32⟩
  | .hbm, ⟨55, _⟩ => ⟨S1x32, .f32⟩
  | .hbm, ⟨56, _⟩ => ⟨S1x32, .f32⟩
  | .hbm, ⟨57, _⟩ => ⟨S100000x32, .f32⟩
  | .hbm, ⟨58, _⟩ => ⟨S_, .i32⟩
  | .hbm, ⟨59, _⟩ => ⟨S3200000, .i32⟩
  | .hbm, ⟨60, _⟩ => ⟨S3200000, .i1⟩
  | .hbm, ⟨61, _⟩ => ⟨S_, .i32⟩
  | .hbm, ⟨62, _⟩ => ⟨S3200000, .i32⟩
  | .hbm, ⟨63, _⟩ => ⟨S3200000, .i32⟩
  | .hbm, ⟨64, _⟩ => ⟨S3200000, .i32⟩
  | .hbm, ⟨65, _⟩ => ⟨S3200000x1, .i32⟩
  | .hbm, ⟨66, _⟩ => ⟨S3200000x32, .f32⟩
  | .hbm, ⟨67, _⟩ => ⟨S_, .f32⟩
  | .hbm, ⟨68, _⟩ => ⟨S100000x32, .f32⟩
  | .hbm, ⟨69, _⟩ => ⟨S3200000x1, .i32⟩
  | .hbm, ⟨70, _⟩ => ⟨S100000x32, .f32⟩
  | .hbm, ⟨71, _⟩ => ⟨S100000x1, .f32⟩
  | .hbm, ⟨72, _⟩ => ⟨S100000x32, .f32⟩
  | .hbm, ⟨73, _⟩ => ⟨S100000x32, .f32⟩
  | .hbm, ⟨74, _⟩ => ⟨S1x32, .f32⟩
  | .hbm, ⟨75, _⟩ => ⟨S1x32, .f32⟩
  | .hbm, ⟨76, _⟩ => ⟨S1x32, .f32⟩
  | .hbm, ⟨77, _⟩ => ⟨S1x32, .f32⟩
  | .hbm, ⟨78, _⟩ => ⟨S1x32, .f32⟩
  | .hbm, ⟨79, _⟩ => ⟨S1x64, .f32⟩
  | .hbm, ⟨80, _⟩ => ⟨S1x1, .f32⟩
  | .hbm, ⟨81, _⟩ => ⟨S100000x1, .f32⟩
  | .hbm, ⟨82, _⟩ => ⟨S100000, .f32⟩
  | .local _ .vmem, ⟨0, _⟩ => ⟨S2000x11, .f32⟩
  | .local _ .vmem, ⟨1, _⟩ => ⟨S2000x11, .f32⟩
  | .local _ .vmem, ⟨2, _⟩ => ⟨S2000x11, .f32⟩
  | .local _ .vmem, ⟨3, _⟩ => ⟨S2000x11, .f32⟩
  | .local _ .vmem, ⟨4, _⟩ => ⟨S11x32, .f32⟩
  | .local _ .vmem, ⟨5, _⟩ => ⟨S1x32, .f32⟩
  | .local _ .vmem, ⟨6, _⟩ => ⟨S11x32, .f32⟩
  | .local _ .vmem, ⟨7, _⟩ => ⟨S1x32, .f32⟩
  | .local _ .vmem, ⟨8, _⟩ => ⟨S1x32, .f32⟩
  | .local _ .vmem, ⟨9, _⟩ => ⟨S1x32, .f32⟩
  | .local _ .vmem, ⟨10, _⟩ => ⟨S1x32, .f32⟩
  | .local _ .vmem, ⟨11, _⟩ => ⟨S2000x32, .f32⟩
  | .local _ .vmem, ⟨12, _⟩ => ⟨S2000x32, .f32⟩
  | .local _ .vmem, ⟨13, _⟩ => ⟨S2000x32, .f32⟩
  | .local _ .vmem, ⟨14, _⟩ => ⟨S2000x32, .f32⟩
  | .local _ .vmem, ⟨15, _⟩ => ⟨S2000x32, .f32⟩
  | .local _ .vmem, ⟨16, _⟩ => ⟨S2000x32, .f32⟩
  | .local _ .vmem, ⟨17, _⟩ => ⟨S32x32, .f32⟩
  | .local _ .vmem, ⟨18, _⟩ => ⟨S1x32, .f32⟩
  | .local _ .vmem, ⟨19, _⟩ => ⟨S32x32, .f32⟩
  | .local _ .vmem, ⟨20, _⟩ => ⟨S1x32, .f32⟩
  | .local _ .vmem, ⟨21, _⟩ => ⟨S1x32, .f32⟩
  | .local _ .vmem, ⟨22, _⟩ => ⟨S1x32, .f32⟩
  | .local _ .vmem, ⟨23, _⟩ => ⟨S1x32, .f32⟩
  | .local _ .vmem, ⟨24, _⟩ => ⟨S32x64, .f32⟩
  | .local _ .vmem, ⟨25, _⟩ => ⟨S1x64, .f32⟩
  | .local _ .vmem, ⟨26, _⟩ => ⟨S64x1, .f32⟩
  | .local _ .vmem, ⟨27, _⟩ => ⟨S1x1, .f32⟩
  | .local _ .vmem, ⟨28, _⟩ => ⟨S2000x1, .f32⟩
  | .local _ .vmem, ⟨29, _⟩ => ⟨S2000x1, .f32⟩
  | _, _ => ⟨S100000x11, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst : Ref sig .tc := ⟨.hbm, 24, rfl⟩
abbrev main_v4 : Ref sig .tc := ⟨.hbm, 25, rfl⟩
abbrev main_cst_0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst_1 : Ref sig .tc := ⟨.hbm, 30, rfl⟩
abbrev main_v8 : Ref sig .tc := ⟨.hbm, 31, rfl⟩
abbrev main_v9 : Ref sig .tc := ⟨.hbm, 32, rfl⟩
abbrev main_cst_2 : Ref sig .tc := ⟨.hbm, 33, rfl⟩
abbrev main_v10 : Ref sig .tc := ⟨.hbm, 34, rfl⟩
abbrev main_v11 : Ref sig .tc := ⟨.hbm, 35, rfl⟩
abbrev main_c : Ref sig .tc := ⟨.hbm, 36, rfl⟩
abbrev main_v12 : Ref sig .tc := ⟨.hbm, 37, rfl⟩
abbrev main_v13 : Ref sig .tc := ⟨.hbm, 38, rfl⟩
abbrev main_c_3 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_cst_4 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_c_5 : Ref sig .tc := ⟨.hbm, 58, rfl⟩
abbrev main_v31 : Ref sig .tc := ⟨.hbm, 59, rfl⟩
abbrev main_v32 : Ref sig .tc := ⟨.hbm, 60, rfl⟩
abbrev main_c_6 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_7 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg10_0 : Ref sig .tc := ⟨.vmem, 25, rfl⟩
abbrev cc1_stg11_0 : Ref sig .tc := ⟨.vmem, 26, rfl⟩
abbrev cc1_stg12_0 : Ref sig .tc := ⟨.vmem, 27, rfl⟩
abbrev cc1_stg13_0 : Ref sig .tc := ⟨.vmem, 28, rfl⟩
abbrev cc1_stg13_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem10_0 : DmaSem sig := 25
abbrev cc1_sem11_0 : DmaSem sig := 26
abbrev cc1_sem12_0 : DmaSem sig := 27
abbrev cc1_sem13_0 : DmaSem sig := 28
abbrev cc1_sem13_1 : DmaSem sig := 29

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x11 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x11 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S11x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S11x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x32 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S32x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S64x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x1 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S2000x1 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S_S100000x11 : S_.BroadcastsInDim S100000x11 (![] : Fin 0 → Fin S100000x11.rank)
  bcast_S100000_S100000x1_0 : S100000.BroadcastsInDim S100000x1 (![0] : Fin 1 → Fin S100000x1.rank)
  bcast_S100000x1_S100000x11_0_1 : S100000x1.BroadcastsInDim S100000x11 (![0, 1] : Fin 2 → Fin S100000x11.rank)
  shapeCasts_S32_S1x32 : S32.ShapeCasts S1x32
  inb_S2000x11_S2000x11_0_0 : ∀ a, (![0, 0] : Fin 2 → Nat) a + S2000x11.size a ≤ S2000x11.size a
  h_S2000x11 : 0 < S2000x11.numel
  shapeCasts_S2000x11_S2000x11 : S2000x11.ShapeCasts S2000x11
  bitsLt_bf16_f32 : FTy.bits .bf16 < FTy.bits .f32
  inb_S11x32_S11x32_0_0 : ∀ a, (![0, 0] : Fin 2 → Nat) a + S11x32.size a ≤ S11x32.size a
  h_S11x32 : 0 < S11x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S2000x32_S2000x32_0_0 : ∀ a, (![0, 0] : Fin 2 → Nat) a + S2000x32.size a ≤ S2000x32.size a
  h_S2000x32 : 0 < S2000x32.numel
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  shapeCasts_S64_S1x64 : S64.ShapeCasts S1x64
  shapeCasts_S1_S1x1 : S1.ShapeCasts S1x1
  shapeCasts_S2000x32_S2000x32 : S2000x32.ShapeCasts S2000x32
  inb_S32x32_S32x32_0_0 : ∀ a, (![0, 0] : Fin 2 → Nat) a + S32x32.size a ≤ S32x32.size a
  h_S32x32 : 0 < S32x32.numel
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  shapeCasts_S100000x1_S100000 : S100000x1.ShapeCasts S100000
  scatter_S100000_S3200000x1_S3200000_n_0_0_1_wf : ScatterDims.WF S100000 S3200000x1 S3200000 [] [0] [0] 1
  gather_S100000x11_S3200000x1_S3200000x11_1_0_n_n_0_1_111_wf : GatherDims.WF S100000x11 S3200000x1 S3200000x11 [1] [0] [] [0] [] 1 ![1, 11]
  scatter_S100000x11_S3200000x1_S3200000x11_1_0_0_1_wf : ScatterDims.WF S100000x11 S3200000x1 S3200000x11 [1] [0] [0] 1
  dot_S2000x11_S11x32_S2000x32_1_0_0_1_n_n_wf : DotDims.WF S2000x11 S11x32 S2000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S2000x32_S32x32_S2000x32_1_0_0_1_n_n_wf : DotDims.WF S2000x32 S32x32 S2000x32 [1] [0] [0] [1] [] []
  dot_S2000x32_S32x64_S2000x64_1_0_0_1_n_n_wf : DotDims.WF S2000x32 S32x64 S2000x64 [1] [0] [0] [1] [] []
  dot_S2000x64_S64x1_S2000x1_1_0_0_1_n_n_wf : DotDims.WF S2000x64 S64x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x11.size a ≤ S100000x11.size a
  hwx0_0 : ∀ i : grid0.Coords, EltTy.bits .f32 = 32 ∨ (Rect.block (s := S100000x11) S2000x11.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x11.size a ≤ S100000x11.size a
  hwx0_1 : ∀ i : grid0.Coords, EltTy.bits .f32 = 32 ∨ (Rect.block (s := S100000x11) S2000x11.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S11x32.size a ≤ S11x32.size a
  hwx0_2 : ∀ i : grid0.Coords, EltTy.bits .f32 = 32 ∨ (Rect.block (s := S11x32) S11x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S11x32.size a ≤ S11x32.size a
  hwx0_4 : ∀ i : grid0.Coords, EltTy.bits .f32 = 32 ∨ (Rect.block (s := S11x32) S11x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x32.size a ≤ S100000x32.size a
  hwx0_9 : ∀ i : grid0.Coords, EltTy.bits .f32 = 32 ∨ (Rect.block (s := S100000x32) S2000x32.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S100000x32.size a
  hwx1_0 : ∀ i : grid1.Coords, EltTy.bits .f32 = 32 ∨ (Rect.block (s := S100000x32) S2000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x32.size a ≤ S100000x32.size a
  hwx1_1 : ∀ i : grid1.Coords, EltTy.bits .f32 = 32 ∨ (Rect.block (s := S100000x32) S2000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x32.size a ≤ S32x32.size a
  hwx1_4 : ∀ i : grid1.Coords, EltTy.bits .f32 = 32 ∨ (Rect.block (s := S32x32) S32x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x32.size a ≤ S1x32.size a
  hwx1_5 : ∀ i : grid1.Coords, EltTy.bits .f32 = 32 ∨ (Rect.block (s := S1x32) S1x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x32.size a ≤ S1x32.size a
  hwx1_6 : ∀ i : grid1.Coords, EltTy.bits .f32 = 32 ∨ (Rect.block (s := S1x32) S1x32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x32.size a ≤ S1x32.size a
  hwx1_7 : ∀ i : grid1.Coords, EltTy.bits .f32 = 32 ∨ (Rect.block (s := S1x32) S1x32.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x32.size a ≤ S1x32.size a
  hwx1_8 : ∀ i : grid1.Coords, EltTy.bits .f32 = 32 ∨ (Rect.block (s := S1x32) S1x32.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S32x64.size a ≤ S32x64.size a
  hwx1_9 : ∀ i : grid1.Coords, EltTy.bits .f32 = 32 ∨ (Rect.block (s := S32x64) S32x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x64.size a ≤ S1x64.size a
  hwx1_10 : ∀ i : grid1.Coords, EltTy.bits .f32 = 32 ∨ (Rect.block (s := S1x64) S1x64.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S64x1.size a ≤ S64x1.size a
  hwx1_11 : ∀ i : grid1.Coords, EltTy.bits .f32 = 32 ∨ (Rect.block (s := S64x1) S64x1.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x1.size a ≤ S1x1.size a
  hwx1_12 : ∀ i : grid1.Coords, EltTy.bits .f32 = 32 ∨ (Rect.block (s := S1x1) S1x1.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S2000x1.size a ≤ S100000x1.size a
  hwx1_13 : ∀ i : grid1.Coords, EltTy.bits .f32 = 32 ∨ (Rect.block (s := S100000x1) S2000x1.size (cc1_transform_13 i) (hinb1_13 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x11_S3200000x1_S3200000x11_1_0_n_n_0_1_111 : GatherDims S100000x11 S3200000x1 S3200000x11 where
  offsetDims := [1]
  collapsedSliceDims := [0]
  operandBatchingDims := []
  startIndicesBatchingDims := []
  startIndexMap := [0]
  indexVectorDim := 1
  sliceSizes := ![1, 11]
  wf := gather_S100000x11_S3200000x1_S3200000x11_1_0_n_n_0_1_111_wf
def scatter_S100000x11_S3200000x1_S3200000x11_1_0_0_1 : ScatterDims S100000x11 S3200000x1 S3200000x11 where
  updateWindowDims := [1]
  insertedWindowDims := [0]
  scatterDimsToOperandDims := [0]
  indexVectorDim := 1
  wf := scatter_S100000x11_S3200000x1_S3200000x11_1_0_0_1_wf
def dot_S2000x11_S11x32_S2000x32_1_0_0_1_n_n : DotDims S2000x11 S11x32 S2000x32 where
  lhsContracting := [1]
  rhsContracting := [0]
  lhsNonContracting := [0]
  rhsNonContracting := [1]
  lhsBatch := []
  rhsBatch := []
  wf := dot_S2000x11_S11x32_S2000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S2000x32_S32x32_S2000x32_1_0_0_1_n_n : DotDims S2000x32 S32x32 S2000x32 where
  lhsContracting := [1]
  rhsContracting := [0]
  lhsNonContracting := [0]
  rhsNonContracting := [1]
  lhsBatch := []
  rhsBatch := []
  wf := dot_S2000x32_S32x32_S2000x32_1_0_0_1_n_n_wf
def dot_S2000x32_S32x64_S2000x64_1_0_0_1_n_n : DotDims S2000x32 S32x64 S2000x64 where
  lhsContracting := [1]
  rhsContracting := [0]
  lhsNonContracting := [0]
  rhsNonContracting := [1]
  lhsBatch := []
  rhsBatch := []
  wf := dot_S2000x32_S32x64_S2000x64_1_0_0_1_n_n_wf
def dot_S2000x64_S64x1_S2000x1_1_0_0_1_n_n : DotDims S2000x64 S64x1 S2000x1 where
  lhsContracting := [1]
  rhsContracting := [0]
  lhsNonContracting := [0]
  rhsNonContracting := [1]
  lhsBatch := []
  rhsBatch := []
  wf := dot_S2000x64_S64x1_S2000x1_1_0_0_1_n_n_wf

abbrev win0_0 : Pipeline.Window sig grid0 :=
  Pipeline.Window.ofSpec (Memref.whole main_v24) S2000x11.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x11.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S11x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S11x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v28) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v29) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v30) S2000x32.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v43) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S2000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S32x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S1x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v46) S1x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v47) S1x32.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v48) S1x32.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg16) S32x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v49) S1x64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg18) S64x1.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v50) S1x1.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v51) S2000x1.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

class Facts : Prop extends Facts₀ where

variable [Facts]
-- ==== ReferenceIdeal.lean ====
abbrev S100000x11 : Shape := ⟨2, ![100000, 11]⟩
abbrev S2x3200000 : Shape := ⟨2, ![2, 3200000]⟩
abbrev S11x32 : Shape := ⟨2, ![11, 32]⟩
abbrev S32 : Shape := ⟨1, ![32]⟩
abbrev S32x32 : Shape := ⟨2, ![32, 32]⟩
abbrev S32x64 : Shape := ⟨2, ![32, 64]⟩
abbrev S64 : Shape := ⟨1, ![64]⟩
abbrev S64x1 : Shape := ⟨2, ![64, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x11 : Shape := ⟨2, ![3200000, 11]⟩
abbrev S100000 : Shape := ⟨1, ![100000]⟩
abbrev S100000x1 : Shape := ⟨2, ![100000, 1]⟩
abbrev S100000x32 : Shape := ⟨2, ![100000, 32]⟩
abbrev S1x32 : Shape := ⟨2, ![1, 32]⟩
abbrev S3200000x32 : Shape := ⟨2, ![3200000, 32]⟩
abbrev S100000x64 : Shape := ⟨2, ![100000, 64]⟩
abbrev S1x64 : Shape := ⟨2, ![1, 64]⟩
abbrev S1x1 : Shape := ⟨2, ![1, 1]⟩

abbrev nBuf : Space → Nat
  | .hbm => 142
  | .vmem => 0
  | .smem => 0
  | _ => 0

abbrev hbmTy0_0 (i : Nat) : BufTy := match i % 128 with
  | 0 => ⟨S100000x11, .f32⟩
  | 1 => ⟨S2x3200000, .i32⟩
  | 2 => ⟨S11x32, .f32⟩
  | 3 => ⟨S32, .f32⟩
  | 4 => ⟨S11x32, .f32⟩
  | 5 => ⟨S32, .f32⟩
  | 6 => ⟨S32, .f32⟩
  | 7 => ⟨S32, .f32⟩
  | 8 => ⟨S32, .f32⟩
  | 9 => ⟨S32x32, .f32⟩
  | 10 => ⟨S32, .f32⟩
  | 11 => ⟨S32x32, .f32⟩
  | 12 => ⟨S32, .f32⟩
  | 13 => ⟨S32, .f32⟩
  | 14 => ⟨S32, .f32⟩
  | 15 => ⟨S32, .f32⟩
  | 16 => ⟨S32x64, .f32⟩
  | 17 => ⟨S64, .f32⟩
  | 18 => ⟨S64x1, .f32⟩
  | 19 => ⟨S1, .f32⟩
  | 20 => ⟨S1x3200000, .i32⟩
  | 21 => ⟨S3200000, .i32⟩
  | 22 => ⟨S1x3200000, .i32⟩
  | 23 => ⟨S3200000, .i32⟩
  | 24 => ⟨S_, .i32⟩
  | 25 => ⟨S3200000, .i32⟩
  | 26 => ⟨S3200000, .i1⟩
  | 27 => ⟨S_, .i32⟩
  | 28 => ⟨S3200000, .i32⟩
  | 29 => ⟨S3200000, .i32⟩
  | 30 => ⟨S3200000, .i32⟩
  | 31 => ⟨S3200000x1, .i32⟩
  | 32 => ⟨S3200000x11, .f32⟩
  | 33 => ⟨S_, .f32⟩
  | 34 => ⟨S100000x11, .f32⟩
  | 35 => ⟨S3200000x1, .i32⟩
  | 36 => ⟨S100000x11, .f32⟩
  | 37 => ⟨S_, .f32⟩
  | 38 => ⟨S3200000, .f32⟩
  | 39 => ⟨S_, .f32⟩
  | 40 => ⟨S100000, .f32⟩
  | 41 => ⟨S3200000x1, .i32⟩
  | 42 => ⟨S100000, .f32⟩
  | 43 => ⟨S_, .f32⟩
  | 44 => ⟨S_, .f32⟩
  | 45 => ⟨S100000, .f32⟩
  | 46 => ⟨S100000, .f32⟩
  | 47 => ⟨S100000x1, .f32⟩
  | 48 => ⟨S100000x11, .f32⟩
  | 49 => ⟨S100000x11, .f32⟩
  | 50 => ⟨S100000x32, .f32⟩
  | 51 => ⟨S1x32, .f32⟩
  | 52 => ⟨S100000x32, .f32⟩
  | 53 => ⟨S100000x32, .f32⟩
  | 54 => ⟨S100000x32, .f32⟩
  | 55 => ⟨S100000x32, .f32⟩
  | 56 => ⟨S1x32, .f32⟩
  | 57 => ⟨S100000x32, .f32⟩
  | 58 => ⟨S100000x32, .f32⟩
  | 59 => ⟨S_, .f32⟩
  | 60 => ⟨S32, .f32⟩
  | 61 => ⟨S32, .f32⟩
  | 62 => ⟨S32, .f32⟩
  | 63 => ⟨S1x32, .f32⟩
  | 64 => ⟨S100000x32, .f32⟩
  | 65 => ⟨S100000x32, .f32⟩
  | 66 => ⟨S1x32, .f32⟩
  | 67 => ⟨S100000x32, .f32⟩
  | 68 => ⟨S100000x32, .f32⟩
  | 69 => ⟨S1x32, .f32⟩
  | 70 => ⟨S100000x32, .f32⟩
  | 71 => ⟨S100000x32, .f32⟩
  | 72 => ⟨S_, .f32⟩
  | 73 => ⟨S100000x32, .f32⟩
  | 74 => ⟨S100000x32, .f32⟩
  | 75 => ⟨S1x3200000, .i32⟩
  | 76 => ⟨S3200000, .i32⟩
  | 77 => ⟨S1x3200000, .i32⟩
  | 78 => ⟨S3200000, .i32⟩
  | 79 => ⟨S_, .i32⟩
  | 80 => ⟨S3200000, .i32⟩
  | 81 => ⟨S3200000, .i1⟩
  | 82 => ⟨S_, .i32⟩
  | 83 => ⟨S3200000, .i32⟩
  | 84 => ⟨S3200000, .i32⟩
  | 85 => ⟨S3200000, .i32⟩
  | 86 => ⟨S3200000x1, .i32⟩
  | 87 => ⟨S3200000x32, .f32⟩
  | 88 => ⟨S_, .f32⟩
  | 89 => ⟨S100000x32, .f32⟩
  | 90 => ⟨S3200000x1, .i32⟩
  | 91 => ⟨S100000x32, .f32⟩
  | 92 => ⟨S_, .f32⟩
  | 93 => ⟨S3200000, .f32⟩
  | 94 => ⟨S_, .f32⟩
  | 95 => ⟨S100000, .f32⟩
  | 96 => ⟨S3200000x1, .i32⟩
  | 97 => ⟨S100000, .f32⟩
  | 98 => ⟨S_, .f32⟩
  | 99 => ⟨S_, .f32⟩
  | 100 => ⟨S100000, .f32⟩
  | 101 => ⟨S100000, .f32⟩
  | 102 => ⟨S100000x1, .f32⟩
  | 103 => ⟨S100000x32, .f32⟩
  | 104 => ⟨S100000x32, .f32⟩
  | 105 => ⟨S100000x32, .f32⟩
  | 106 => ⟨S1x32, .f32⟩
  | 107 => ⟨S100000x32, .f32⟩
  | 108 => ⟨S100000x32, .f32⟩
  | 109 => ⟨S100000x32, .f32⟩
  | 110 => ⟨S100000x32, .f32⟩
  | 111 => ⟨S1x32, .f32⟩
  | 112 => ⟨S100000x32, .f32⟩
  | 113 => ⟨S100000x32, .f32⟩
  | 114 => ⟨S_, .f32⟩
  | 115 => ⟨S32, .f32⟩
  | 116 => ⟨S32, .f32⟩
  | 117 => ⟨S32, .f32⟩
  | 118 => ⟨S1x32, .f32⟩
  | 119 => ⟨S100000x32, .f32⟩
  | 120 => ⟨S100000x32, .f32⟩
  | 121 => ⟨S1x32, .f32⟩
  | 122 => ⟨S100000x32, .f32⟩
  | 123 => ⟨S100000x32, .f32⟩
  | 124 => ⟨S1x32, .f32⟩
  | 125 => ⟨S100000x32, .f32⟩
  | 126 => ⟨S100000x32, .f32⟩
  | 127 => ⟨S_, .f32⟩
  | _ => ⟨S100000x11, .f32⟩

abbrev hbmTy0_1 (i : Nat) : BufTy := match i % 128 with
  | 0 => ⟨S100000x32, .f32⟩
  | 1 => ⟨S100000x32, .f32⟩
  | 2 => ⟨S100000x64, .f32⟩
  | 3 => ⟨S1x64, .f32⟩
  | 4 => ⟨S100000x64, .f32⟩
  | 5 => ⟨S100000x64, .f32⟩
  | 6 => ⟨S_, .f32⟩
  | 7 => ⟨S100000x64, .f32⟩
  | 8 => ⟨S100000x64, .f32⟩
  | 9 => ⟨S100000x1, .f32⟩
  | 10 => ⟨S1x1, .f32⟩
  | 11 => ⟨S100000x1, .f32⟩
  | 12 => ⟨S100000x1, .f32⟩
  | 13 => ⟨S100000, .f32⟩
  | _ => ⟨S100000x11, .f32⟩

abbrev hbmTy (i : Nat) : BufTy := match i / 128 with
  | 0 => hbmTy0_0 i
  | 1 => hbmTy0_1 i
  | _ => ⟨S100000x11, .f32⟩

abbrev bufTy : (tb : Table) → Fin (tcTables nBuf tb) → BufTy
  | .hbm, ⟨i, _⟩ => hbmTy i
  | _, _ => ⟨S100000x11, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_1 : Ref sig .tc := ⟨.hbm, 37, rfl⟩
abbrev main_v14 : Ref sig .tc := ⟨.hbm, 38, rfl⟩
abbrev main_cst_2 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_cst_3 : Ref sig .tc := ⟨.hbm, 43, rfl⟩
abbrev main_call0_v0 : Ref sig .tc := ⟨.hbm, 44, rfl⟩
abbrev main_call0_v1 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_4 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_call1_cst : Ref sig .tc := ⟨.hbm, 72, rfl⟩
abbrev main_call1_v0 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_c_5 : Ref sig .tc := ⟨.hbm, 79, rfl⟩
abbrev main_v48 : Ref sig .tc := ⟨.hbm, 80, rfl⟩
abbrev main_v49 : Ref sig .tc := ⟨.hbm, 81, rfl⟩
abbrev main_c_6 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_7 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_8 : Ref sig .tc := ⟨.hbm, 92, rfl⟩
abbrev main_v58 : Ref sig .tc := ⟨.hbm, 93, rfl⟩
abbrev main_cst_9 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_10 : Ref sig .tc := ⟨.hbm, 98, rfl⟩
abbrev main_call2_v0 : Ref sig .tc := ⟨.hbm, 99, rfl⟩
abbrev main_call2_v1 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_cst_11 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_call3_cst : Ref sig .tc := ⟨.hbm, 127, rfl⟩
abbrev main_call3_v0 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_call4_cst : Ref sig .tc := ⟨.hbm, 134, rfl⟩
abbrev main_call4_v0 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x11 : S_.BroadcastsInDim S100000x11 (![] : Fin 0 → Fin S100000x11.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x11_0_1 : S100000x1.BroadcastsInDim S100000x11 (![0, 1] : Fin 2 → Fin S100000x11.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S32 : S_.BroadcastsInDim S32 (![] : Fin 0 → Fin S32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  gather_S100000x11_S3200000x1_S3200000x11_1_0_n_n_0_1_111_wf : GatherDims.WF S100000x11 S3200000x1 S3200000x11 [1] [0] [] [0] [] 1 ![1, 11]
  scatter_S100000x11_S3200000x1_S3200000x11_1_0_0_1_wf : ScatterDims.WF S100000x11 S3200000x1 S3200000x11 [1] [0] [0] 1
  scatter_S100000_S3200000x1_S3200000_n_0_0_1_wf : ScatterDims.WF S100000 S3200000x1 S3200000 [] [0] [0] 1
  dot_S100000x11_S11x32_S100000x32_1_0_0_1_n_n_wf : DotDims.WF S100000x11 S11x32 S100000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S100000x32_S32x32_S100000x32_1_0_0_1_n_n_wf : DotDims.WF S100000x32 S32x32 S100000x32 [1] [0] [0] [1] [] []
  dot_S100000x32_S32x64_S100000x64_1_0_0_1_n_n_wf : DotDims.WF S100000x32 S32x64 S100000x64 [1] [0] [0] [1] [] []
  dot_S100000x64_S64x1_S100000x1_1_0_0_1_n_n_wf : DotDims.WF S100000x64 S64x1 S100000x1 [1] [0] [0] [1] [] []

variable [Facts₀]

def gather_S100000x11_S3200000x1_S3200000x11_1_0_n_n_0_1_111 : GatherDims S100000x11 S3200000x1 S3200000x11 where
  offsetDims := [1]
  collapsedSliceDims := [0]
  operandBatchingDims := []
  startIndicesBatchingDims := []
  startIndexMap := [0]
  indexVectorDim := 1
  sliceSizes := ![1, 11]
  wf := gather_S100000x11_S3200000x1_S3200000x11_1_0_n_n_0_1_111_wf
def scatter_S100000x11_S3200000x1_S3200000x11_1_0_0_1 : ScatterDims S100000x11 S3200000x1 S3200000x11 where
  updateWindowDims := [1]
  insertedWindowDims := [0]
  scatterDimsToOperandDims := [0]
  indexVectorDim := 1
  wf := scatter_S100000x11_S3200000x1_S3200000x11_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x11_S11x32_S100000x32_1_0_0_1_n_n : DotDims S100000x11 S11x32 S100000x32 where
  lhsContracting := [1]
  rhsContracting := [0]
  lhsNonContracting := [0]
  rhsNonContracting := [1]
  lhsBatch := []
  rhsBatch := []
  wf := dot_S100000x11_S11x32_S100000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KernelHost.lean ====
/-
  The host stretches of the idealized kernel's @main, read back to the arguments.  @main is five segments: host
  operations, the first pallas_call, host operations, the second pallas_call, one reshape; the buffer contents at each
  boundary are a fold from the launch memory.  Each host stretch is the same chain of operations as the reference's
  (slices of the edge list, the negative-index fix-up, gather, scatter-add, the degree), so its buffers are the
  reference's stages of the same arguments; the one difference is the neighbour mean, which the kernel forms as a
  product with the reciprocal of the floored degree.
-/
import proofs.«100888_j64295660421273_1_alg».proof.Proof.KernelIdealFrame
import proofs.«100888_j64295660421273_1_alg».proof.Proof.Gen.ReferenceIdeal.Read
import Idealize.ShloMosaic.Lib.StableHlo.Run

set_option maxRecDepth 16384

noncomputable section

namespace Cert.KernelIdeal.Whole

open Idealize.ShloMosaic Idealize.ShloMosaic.TcCoe Idealize.SL.Sem Idealize.ShloMosaic.StableHlo
open Idealize.ShloMosaic.ValueIdx
open Cert.KernelIdeal Cert.KernelIdeal.Gen
open Cert.ReferenceIdeal.Read

/-- A buffer after the first host stretch: unfold the stretch's fold, one operation at a time. -/
local macro "enter0" : tactic =>
  `(tactic| (show StableHlo.after hostOps0 (W0 _ _ _) _ = _; simp only [hostOps0]; after_results_simp; try rfl))
/-- A buffer after the second host stretch, down to the contents the first pallas_call left. -/
local macro "enter1" : tactic =>
  `(tactic| (show StableHlo.after hostOps1 (W2 _ _ _) _ = _; simp only [hostOps1]; after_results_simp))

/-! ## The host stretches, at any float family -/

section Host

variable {F : FTy → Type} [FloatOps F]
variable (m : (ℓ : Loc nD τ sig) → Buf (Elt F) ℓ) (ρ : Dev nD → PrngReg) (c : Dev nD)

/-! The argument arrays as launched. -/
abbrev a0 : (⟨S100000x11, .f32⟩ : BufTy).Contents (Elt F) := m ((c : Thread nD τ).loc main_arg0)
abbrev a1 : (⟨S2x3200000, .i32⟩ : BufTy).Contents (Elt F) := m ((c : Thread nD τ).loc main_arg1)
abbrev a2 : (⟨S11x32, .f32⟩ : BufTy).Contents (Elt F) := m ((c : Thread nD τ).loc main_arg2)
abbrev a3 : (⟨S32, .f32⟩ : BufTy).Contents (Elt F) := m ((c : Thread nD τ).loc main_arg3)
abbrev a4 : (⟨S11x32, .f32⟩ : BufTy).Contents (Elt F) := m ((c : Thread nD τ).loc main_arg4)
abbrev a5 : (⟨S32, .f32⟩ : BufTy).Contents (Elt F) := m ((c : Thread nD τ).loc main_arg5)
abbrev a6 : (⟨S32, .f32⟩ : BufTy).Contents (Elt F) := m ((c : Thread nD τ).loc main_arg6)
abbrev a7 : (⟨S32, .f32⟩ : BufTy).Contents (Elt F) := m ((c : Thread nD τ).loc main_arg7)
abbrev a8 : (⟨S32, .f32⟩ : BufTy).Contents (Elt F) := m ((c : Thread nD τ).loc main_arg8)
abbrev a9 : (⟨S32x32, .f32⟩ : BufTy).Contents (Elt F) := m ((c : Thread nD τ).loc main_arg9)
abbrev a10 : (⟨S32, .f32⟩ : BufTy).Contents (Elt F) := m ((c : Thread nD τ).loc main_arg10)
abbrev a11 : (⟨S32x32, .f32⟩ : BufTy).Contents (Elt F) := m ((c : Thread nD τ).loc main_arg11)
abbrev a12 : (⟨S32, .f32⟩ : BufTy).Contents (Elt F) := m ((c : Thread nD τ).loc main_arg12)
abbrev a13 : (⟨S32, .f32⟩ : BufTy).Contents (Elt F) := m ((c : Thread nD τ).loc main_arg13)
abbrev a14 : (⟨S32, .f32⟩ : BufTy).Contents (Elt F) := m ((c : Thread nD τ).loc main_arg14)
abbrev a15 : (⟨S32, .f32⟩ : BufTy).Contents (Elt F) := m ((c : Thread nD τ).loc main_arg15)
abbrev a16 : (⟨S32x64, .f32⟩ : BufTy).Contents (Elt F) := m ((c : Thread nD τ).loc main_arg16)
abbrev a17 : (⟨S64, .f32⟩ : BufTy).Contents (Elt F) := m ((c : Thread nD τ).loc main_arg17)
abbrev a18 : (⟨S64x1, .f32⟩ : BufTy).Contents (Elt F) := m ((c : Thread nD τ).loc main_arg18)
abbrev a19 : (⟨S1, .f32⟩ : BufTy).Contents (Elt F) := m ((c : Thread nD τ).loc main_arg19)

/-- The reciprocal of the floored degree, per node, as the first host stretch forms it. -/
abbrev recipDeg : (⟨S100000, .f32⟩ : BufTy).Contents (Elt F) :=
  (Host.divf (broadcastInDim S100000 ![] bcast_S_S100000 (constant S_ .f32 0x3F800000#32)) (maximumf (val_main_v17 (F := F) (a1 m c)) (broadcastInDim S100000 ![] bcast_S_S100000 (constant S_ .f32 0x3F800000#32))))

/-! ### Entering the first pallas_call -/

/-- The neighbour-mean buffer: the summed messages (the reference's stage of the same arguments) times the reciprocal of the floored degree, repeated across the features. -/
theorem enter0_mean : (V1 m ρ c main_v24 : (⟨S100000x11, .f32⟩ : BufTy).Contents (Elt F)) = mulf (val_main_v13 (F := F) (a0 m c) (a1 m c))
        (broadcastInDim S100000x11 ![0, 1] bcast_S100000x1_S100000x11_0_1 (broadcastInDim S100000x1 ![0] bcast_S100000_S100000x1_0 (recipDeg m c))) := by
  enter0
/-- The node features are as launched. -/
theorem enter0_x : (V1 m ρ c main_arg0 : (⟨S100000x11, .f32⟩ : BufTy).Contents (Elt F)) = a0 m c := by
  enter0
/-- The neighbour weights are as launched. -/
theorem enter0_wl : (V1 m ρ c main_arg2 : (⟨S11x32, .f32⟩ : BufTy).Contents (Elt F)) = a2 m c := by
  enter0
/-- The self weights are as launched. -/
theorem enter0_wr : (V1 m ρ c main_arg4 : (⟨S11x32, .f32⟩ : BufTy).Contents (Elt F)) = a4 m c := by
  enter0
/-- Argument 3, a length-32 vector, laid out as one row. -/
theorem enter0_v25 : (V1 m ρ c main_v25 : (⟨S1x32, .f32⟩ : BufTy).Contents (Elt F)) = fun i => shapeCast S1x32 (a3 m c) shapeCasts_S32_S1x32 i := by
  enter0
/-- Argument 5, a length-32 vector, laid out as one row. -/
theorem enter0_v26 : (V1 m ρ c main_v26 : (⟨S1x32, .f32⟩ : BufTy).Contents (Elt F)) = fun i => shapeCast S1x32 (a5 m c) shapeCasts_S32_S1x32 i := by
  enter0
/-- Argument 6, a length-32 vector, laid out as one row. -/
theorem enter0_v27 : (V1 m ρ c main_v27 : (⟨S1x32, .f32⟩ : BufTy).Contents (Elt F)) = fun i => shapeCast S1x32 (a6 m c) shapeCasts_S32_S1x32 i := by
  enter0
/-- Argument 7, a length-32 vector, laid out as one row. -/
theorem enter0_v28 : (V1 m ρ c main_v28 : (⟨S1x32, .f32⟩ : BufTy).Contents (Elt F)) = fun i => shapeCast S1x32 (a7 m c) shapeCasts_S32_S1x32 i := by
  enter0
/-- Argument 8, a length-32 vector, laid out as one row. -/
theorem enter0_v29 : (V1 m ρ c main_v29 : (⟨S1x32, .f32⟩ : BufTy).Contents (Elt F)) = fun i => shapeCast S1x32 (a8 m c) shapeCasts_S32_S1x32 i := by
  enter0

/-! ### What the second host stretch reads of the first stretch's buffers -/

/-- The source-node list (row 0 of the edge list). -/
theorem keep_src : W2 m ρ c (Proc.devRef .tc main_v1) = val_main_v45 (F := F) (a1 m c) :=
  (W2_of_ne m ρ c main_v1 (by decide)).trans (by enter0)
/-- The destination-node list (row 1 of the edge list). -/
theorem keep_dst : W2 m ρ c (Proc.devRef .tc main_v3) = val_main_v47 (F := F) (a1 m c) :=
  (W2_of_ne m ρ c main_v3 (by decide)).trans (by enter0)
/-- The reciprocal of the floored degree, computed once and used by both layers. -/
theorem keep_recip : W2 m ρ c (Proc.devRef .tc main_v11) = recipDeg m c :=
  (W2_of_ne m ρ c main_v11 (by decide)).trans (by enter0)
theorem keep_arg9 : W2 m ρ c (Proc.devRef .tc main_arg9) = a9 m c :=
  (W2_of_ne m ρ c main_arg9 (by decide)).trans (by enter0)
theorem keep_arg10 : W2 m ρ c (Proc.devRef .tc main_arg10) = a10 m c :=
  (W2_of_ne m ρ c main_arg10 (by decide)).trans (by enter0)
theorem keep_arg11 : W2 m ρ c (Proc.devRef .tc main_arg11) = a11 m c :=
  (W2_of_ne m ρ c main_arg11 (by decide)).trans (by enter0)
theorem keep_arg12 : W2 m ρ c (Proc.devRef .tc main_arg12) = a12 m c :=
  (W2_of_ne m ρ c main_arg12 (by decide)).trans (by enter0)
theorem keep_arg13 : W2 m ρ c (Proc.devRef .tc main_arg13) = a13 m c :=
  (W2_of_ne m ρ c main_arg13 (by decide)).trans (by enter0)
theorem keep_arg14 : W2 m ρ c (Proc.devRef .tc main_arg14) = a14 m c :=
  (W2_of_ne m ρ c main_arg14 (by decide)).trans (by enter0)
theorem keep_arg15 : W2 m ρ c (Proc.devRef .tc main_arg15) = a15 m c :=
  (W2_of_ne m ρ c main_arg15 (by decide)).trans (by enter0)
theorem keep_arg16 : W2 m ρ c (Proc.devRef .tc main_arg16) = a16 m c :=
  (W2_of_ne m ρ c main_arg16 (by decide)).trans (by enter0)
theorem keep_arg17 : W2 m ρ c (Proc.devRef .tc main_arg17) = a17 m c :=
  (W2_of_ne m ρ c main_arg17 (by decide)).trans (by enter0)
theorem keep_arg18 : W2 m ρ c (Proc.devRef .tc main_arg18) = a18 m c :=
  (W2_of_ne m ρ c main_arg18 (by decide)).trans (by enter0)
theorem keep_arg19 : W2 m ρ c (Proc.devRef .tc main_arg19) = a19 m c :=
  (W2_of_ne m ρ c main_arg19 (by decide)).trans (by enter0)

/-! ### Entering the second pallas_call -/

/-- The neighbour-mean buffer of the second layer, over whatever the first pallas_call left as activations `H`: the
    messages gathered from `H` and summed per destination, times the same reciprocal. -/
theorem enter1_mean (H : (⟨S100000x32, .f32⟩ : BufTy).Contents (Elt F)) (hH : W2 m ρ c (Proc.devRef .tc main_v30) = H) :
    (V3 m ρ c main_v43 : (⟨S100000x32, .f32⟩ : BufTy).Contents (Elt F)) =
      mulf (Host.scatterAdd scatter_S100000x32_S3200000x1_S3200000x32_1_0_0_1 (val_main_v55 (F := F)) (val_main_v56 (F := F) (a1 m c))
          (Host.gather gather_S100000x32_S3200000x1_S3200000x32_1_0_n_n_0_1_132 H (val_main_v53 (F := F) (a1 m c))))
        (broadcastInDim S100000x32 ![0, 1] bcast_S100000x1_S100000x32_0_1 (broadcastInDim S100000x1 ![0] bcast_S100000_S100000x1_0 (recipDeg m c))) := by
  enter1
  rw [keep_src, keep_dst, keep_recip, hH]
  rfl
/-- The same buffer when what the first pallas_call left IS the reference's first hidden layer: the gather and the
    scatter-add over it are then the reference's own stages, so the buffer holds the reference's summed messages of
    that layer times the reciprocal of the floored degree. -/
theorem enter1_mean_of (hH : W2 m ρ c (Proc.devRef .tc main_v30) = val_main_v43 (F := F) (a0 m c) (a1 m c) (a2 m c) (a3 m c) (a4 m c) (a5 m c) (a6 m c) (a7 m c) (a8 m c)) :
    (V3 m ρ c main_v43 : (⟨S100000x32, .f32⟩ : BufTy).Contents (Elt F)) =
      mulf (val_main_v57 (F := F) (a0 m c) (a1 m c) (a2 m c) (a3 m c) (a4 m c) (a5 m c) (a6 m c) (a7 m c) (a8 m c))
        (broadcastInDim S100000x32 ![0, 1] bcast_S100000x1_S100000x32_0_1 (broadcastInDim S100000x1 ![0] bcast_S100000_S100000x1_0
          (Host.divf (broadcastInDim S100000 ![] bcast_S_S100000 (constant S_ .f32 0x3F800000#32))
            (maximumf (val_main_v61 (F := F) (a1 m c)) (broadcastInDim S100000 ![] bcast_S_S100000 (constant S_ .f32 0x3F800000#32)))))) :=
  (enter1_mean m ρ c _ hH).trans rfl
/-- The first layer's activations pass through the second host stretch untouched. -/
theorem enter1_h : (V3 m ρ c main_v30 : (⟨S100000x32, .f32⟩ : BufTy).Contents (Elt F)) = W2 m ρ c (Proc.devRef .tc main_v30) := by
  enter1
theorem enter1_arg9 : (V3 m ρ c main_arg9 : (⟨S32x32, .f32⟩ : BufTy).Contents (Elt F)) = a9 m c := by
  enter1; exact keep_arg9 m ρ c
theorem enter1_arg11 : (V3 m ρ c main_arg11 : (⟨S32x32, .f32⟩ : BufTy).Contents (Elt F)) = a11 m c := by
  enter1; exact keep_arg11 m ρ c
theorem enter1_arg16 : (V3 m ρ c main_arg16 : (⟨S32x64, .f32⟩ : BufTy).Contents (Elt F)) = a16 m c := by
  enter1; exact keep_arg16 m ρ c
theorem enter1_arg18 : (V3 m ρ c main_arg18 : (⟨S64x1, .f32⟩ : BufTy).Contents (Elt F)) = a18 m c := by
  enter1; exact keep_arg18 m ρ c
theorem enter1_v44 : (V3 m ρ c main_v44 : (⟨S1x32, .f32⟩ : BufTy).Contents (Elt F)) = fun i => shapeCast S1x32 (a10 m c) shapeCasts_S32_S1x32 i := by
  enter1; rw [keep_arg10]
  rfl
theorem enter1_v45 : (V3 m ρ c main_v45 : (⟨S1x32, .f32⟩ : BufTy).Contents (Elt F)) = fun i => shapeCast S1x32 (a12 m c) shapeCasts_S32_S1x32 i := by
  enter1; rw [keep_arg12]
  rfl
theorem enter1_v46 : (V3 m ρ c main_v46 : (⟨S1x32, .f32⟩ : BufTy).Contents (Elt F)) = fun i => shapeCast S1x32 (a13 m c) shapeCasts_S32_S1x32 i := by
  enter1; rw [keep_arg13]
  rfl
theorem enter1_v47 : (V3 m ρ c main_v47 : (⟨S1x32, .f32⟩ : BufTy).Contents (Elt F)) = fun i => shapeCast S1x32 (a14 m c) shapeCasts_S32_S1x32 i := by
  enter1; rw [keep_arg14]
  rfl
theorem enter1_v48 : (V3 m ρ c main_v48 : (⟨S1x32, .f32⟩ : BufTy).Contents (Elt F)) = fun i => shapeCast S1x32 (a15 m c) shapeCasts_S32_S1x32 i := by
  enter1; rw [keep_arg15]
  rfl
theorem enter1_v49 : (V3 m ρ c main_v49 : (⟨S1x64, .f32⟩ : BufTy).Contents (Elt F)) = fun i => shapeCast S1x64 (a17 m c) shapeCasts_S64_S1x64 i := by
  enter1; rw [keep_arg17]
  rfl
theorem enter1_v50 : (V3 m ρ c main_v50 : (⟨S1x1, .f32⟩ : BufTy).Contents (Elt F)) = fun i => shapeCast S1x1 (a19 m c) shapeCasts_S1_S1x1 i := by
  enter1; rw [keep_arg19]
  rfl

/-- The result buffer is the second pallas_call's output column read as a vector. -/
theorem result_reshape :
    (W5 m ρ c (Proc.devRef .tc main_v52) : (⟨S100000, .f32⟩ : BufTy).Contents (Elt F)) =
      fun i => shapeCast S100000 (W4 m ρ c (Proc.devRef .tc main_v51) : (⟨S100000x1, .f32⟩ : BufTy).Contents (Elt F)) shapeCasts_S100000x1_S100000 i := by
  show StableHlo.after hostOps2 (W4 _ _ _) _ = _
  simp only [hostOps2]
  after_results_simp
  try rfl

end Host

end Cert.KernelIdeal.Whole

end
-- ==== Proof.SageSpec.lean ====
/-
  What both programs compute, index by index on the extended reals, written over plain coordinates (no shapes):
  a GraphSAGE layer followed by batch normalisation with running statistics and a ReLU,

      layer agg x n j = max ( ((Σ_k agg n k · wl k j) + bl j + (Σ_k x n k · wr k j) − mu j) · rsqrt (var j + ε) · g j + be j , 0 ),

  the two-layer perceptron head

      head h n p = (Σ_q max ((Σ_k h n k · w1 k q) + b1 q, 0) · w2 q p) + b2 p,

  and the neighbour mean in the two arrangements the programs use: the summed messages TIMES the reciprocal
  1 / max (deg, 1), and the summed messages DIVIDED by max (1, deg). The two agree on every extended real: the
  divisor is at least one, so it is not zero, and off zero a quotient is the product with the inverse.
-/
import Idealize.ShloMosaic.PureOps.Ideal
import Idealize.ShloMosaic.Lib.ValueIdx

noncomputable section

namespace Cert.Sage

open Idealize.ShloMosaic

/-- The batch-norm epsilon, as the extended real its f32 word denotes (the same word in both programs). -/
abbrev eps : EReal := Ideal.ofBits .f32 0x3727C5AC#32
/-- The word `+0.0` (the ReLU's floor), as the extended real it denotes (the same word in both programs). -/
abbrev zero : EReal := Ideal.ofBits .f32 0x00000000#32
/-- The word `1.0` (the degree's floor and the reciprocal's numerator). -/
abbrev one : EReal := Ideal.ofBits .f32 0x3F800000#32

/-- The word `1.0` denotes the real one. -/
theorem one_eq : one = 1 := by
  simp [one, Ideal.ofBits, Ideal.ieee, -EReal.coe_mul]; norm_num

/-- Batch normalisation of one entry with running mean `mu` and variance `var`, scale `g`, shift `be`, then ReLU. -/
def bnRelu (h mu var g be : EReal) : EReal :=
  max ((h - mu) * Ideal.rsqrt (var + eps) * g + be) zero

/-- One SAGE layer: the aggregated features through `wl` plus the bias, plus the node's own features through `wr`,
    normalised and rectified. -/
def layer {N K J : Nat} (agg x : Fin N → Fin K → EReal) (wl wr : Fin K → Fin J → EReal)
    (bl mu var g be : Fin J → EReal) : Fin N → Fin J → EReal :=
  fun n j => bnRelu ((∑ k, agg n k * wl k j) + bl j + ∑ k, x n k * wr k j) (mu j) (var j) (g j) (be j)

/-- The perceptron head: a rectified affine layer, then an affine layer. -/
def head {N K Q P : Nat} (h : Fin N → Fin K → EReal) (w1 : Fin K → Fin Q → EReal) (b1 : Fin Q → EReal)
    (w2 : Fin Q → Fin P → EReal) (b2 : Fin P → EReal) : Fin N → Fin P → EReal :=
  fun n p => (∑ q, max ((∑ k, h n k * w1 k q) + b1 q) zero * w2 q p) + b2 p

/-- The neighbour mean as the kernel forms it: the summed messages times the reciprocal of the floored degree. -/
def meanMul {N K : Nat} (s : Fin N → Fin K → EReal) (d : Fin N → EReal) : Fin N → Fin K → EReal :=
  fun n k => s n k * Ideal.div one (max (d n) one)

/-- The neighbour mean as the reference forms it: the summed messages divided by the floored degree. -/
def meanDiv {N K : Nat} (s : Fin N → Fin K → EReal) (d : Fin N → EReal) : Fin N → Fin K → EReal :=
  fun n k => Ideal.div (s n k) (max one (d n))

/-- A product with the reciprocal of a divisor that is at least one is the quotient by it, on every extended real:
    such a divisor is not zero, and off zero the quotient IS the product with the inverse. -/
theorem mul_recip_floor (s d : EReal) : s * Ideal.div 1 (max d 1) = Ideal.div s (max 1 d) := by
  have h : max d 1 ≠ 0 := ne_of_gt (lt_of_lt_of_le zero_lt_one (le_max_right d 1))
  rw [max_comm 1 d]
  unfold Ideal.div
  rw [if_neg h, if_neg h, one_mul]

/-- The two arrangements of the neighbour mean are one function. -/
theorem meanMul_eq_meanDiv {N K : Nat} (s : Fin N → Fin K → EReal) (d : Fin N → EReal) :
    meanMul s d = meanDiv s d := by
  funext n k
  simp only [meanMul, meanDiv, one_eq]
  exact mul_recip_floor _ _

end Cert.Sage

end
-- ==== Proof.Region0Value.lean ====
import proofs.«100888_j64295660421273_1_alg».proof.Proof.KernelIdealFrame
import proofs.«100888_j64295660421273_1_alg».proof.Proof.SageSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Idealize.ShloMosaic Idealize.ShloMosaic.TcCoe Idealize.SL.Sem Idealize.ShloMosaic.ValueIdx
open Cert.KernelIdeal Cert.KernelIdeal.Gen
open Idealize.ShloMosaic.Pipeline (Dat Cfg Window)

-- The TensorCore's buffer contents when the region is entered: the parameter the region's proof data are stated at.
variable (V : (c : Dev nD) → (b : Ref sig .tc) → Buf (Elt Ideal) ((c : Thread nD τ).loc b))

/-! The first pallas_call's arrays as it finds them, each at its literal type. -/
abbrev aggA (c : Dev nD) : S100000x11.Idx → EReal := V c main_v24
abbrev xA (c : Dev nD) : S100000x11.Idx → EReal := V c main_arg0
abbrev wlA (c : Dev nD) : S11x32.Idx → EReal := V c main_arg2
abbrev blA (c : Dev nD) : S1x32.Idx → EReal := V c main_v25
abbrev wrA (c : Dev nD) : S11x32.Idx → EReal := V c main_arg4
abbrev gA (c : Dev nD) : S1x32.Idx → EReal := V c main_v26
abbrev beA (c : Dev nD) : S1x32.Idx → EReal := V c main_v27
abbrev muA (c : Dev nD) : S1x32.Idx → EReal := V c main_v28
abbrev varA (c : Dev nD) : S1x32.Idx → EReal := V c main_v29

/-- The first layer's activations as ONE function of the arrays the region finds: entry (n, j) is the SAGE layer's
    normalised, rectified value at node n, feature j. -/
def G0 (c : Dev nD) : S100000x32.Idx → EReal := fun i =>
  Sage.layer (fun n k => aggA V c (ix2 n k)) (fun n k => xA V c (ix2 n k))
    (fun k j => wlA V c (ix2 k j)) (fun k j => wrA V c (ix2 k j))
    (fun j => blA V c (ix2 0 j)) (fun j => muA V c (ix2 0 j)) (fun j => varA V c (ix2 0 j))
    (fun j => gA V c (ix2 0 j)) (fun j => beA V c (ix2 0 j))
    ⟨(i 0).val, (i 0).isLt⟩ ⟨(i 1).val, (i 1).isLt⟩

/-! ## The block product at an index

The layer's two products contract the feature axis: axis 1 of the left operand against axis 0 of the right. The four
lemmas below read the operand indices of that contraction coordinate by coordinate. -/

/-- The left operand's row coordinate is the result's row. -/
theorem lhs_prod_0 (i : S2000x32.Idx) (q : dot_S2000x11_S11x32_S2000x32_1_0_0_1_n_n.contr.Idx) :
    (dot_S2000x11_S11x32_S2000x32_1_0_0_1_n_n.lhsIdx i q 0).val = (i 0).val := by
  unfold DotDims.lhsIdx
  rw [dif_neg (show ¬(0 : Fin S2000x11.rank) ∈ dot_S2000x11_S11x32_S2000x32_1_0_0_1_n_n.lhsBatch by decide), dif_pos (show (0 : Fin S2000x11.rank) ∈ dot_S2000x11_S11x32_S2000x32_1_0_0_1_n_n.lhsNonContracting by decide)]
  rfl
/-- The left operand's column coordinate is the contraction coordinate. -/
theorem lhs_prod_1 (i : S2000x32.Idx) (q : dot_S2000x11_S11x32_S2000x32_1_0_0_1_n_n.contr.Idx) :
    (dot_S2000x11_S11x32_S2000x32_1_0_0_1_n_n.lhsIdx i q 1).val = (q ⟨0, by decide⟩).val :=
  dot_S2000x11_S11x32_S2000x32_1_0_0_1_n_n.lhsIdx_val_of_single rfl i q
/-- The right operand's row coordinate is the contraction coordinate. -/
theorem rhs_prod_0 (i : S2000x32.Idx) (q : dot_S2000x11_S11x32_S2000x32_1_0_0_1_n_n.contr.Idx) :
    (dot_S2000x11_S11x32_S2000x32_1_0_0_1_n_n.rhsIdx i q 0).val = (q ⟨0, by decide⟩).val :=
  dot_S2000x11_S11x32_S2000x32_1_0_0_1_n_n.rhsIdx_val_of_single rfl i q
/-- The right operand's column coordinate is the result's column. -/
theorem rhs_prod_1 (i : S2000x32.Idx) (q : dot_S2000x11_S11x32_S2000x32_1_0_0_1_n_n.contr.Idx) :
    (dot_S2000x11_S11x32_S2000x32_1_0_0_1_n_n.rhsIdx i q 1).val = (i 1).val := by
  unfold DotDims.rhsIdx
  rw [dif_neg (show ¬(1 : Fin S11x32.rank) ∈ dot_S2000x11_S11x32_S2000x32_1_0_0_1_n_n.rhsBatch by decide), dif_pos (show (1 : Fin S11x32.rank) ∈ dot_S2000x11_S11x32_S2000x32_1_0_0_1_n_n.rhsNonContracting by decide)]
  rfl

/-- A block product into the zero accumulator, at row r and column j, is the sum over the eleven features of the
    row's entry times the column's entry. -/
theorem prod_at (l : FVec Ideal S2000x11 .bf16) (w : FVec Ideal S11x32 .bf16) (r : Fin 2000) (j : Fin 32) :
    matmul dot_S2000x11_S11x32_S2000x32_1_0_0_1_n_n none l w (constant (F := Ideal) S2000x32 .f32 0x00000000#32) (ix2 r j)
      = ∑ k : Fin 11, l (ix2 r k) * w (ix2 k j) := by
  simp only [matmul]
  rw [Ideal.matmul_constant_zero_apply, ← Equiv.sum_comp (contrEquiv1 dot_S2000x11_S11x32_S2000x32_1_0_0_1_n_n 11 rfl rfl).symm]
  refine Finset.sum_congr rfl fun k _ => ?_
  have hk := contrEquiv1_symm_val dot_S2000x11_S11x32_S2000x32_1_0_0_1_n_n 11 rfl rfl k
  have el : dot_S2000x11_S11x32_S2000x32_1_0_0_1_n_n.lhsIdx (ix2 r j) ((contrEquiv1 dot_S2000x11_S11x32_S2000x32_1_0_0_1_n_n 11 rfl rfl).symm k) = ix2 r k := funext fun a => Fin.ext (by
    match a with
    | ⟨0, _⟩ => exact lhs_prod_0 _ _
    | ⟨1, _⟩ => exact (lhs_prod_1 _ _).trans hk)
  have er : dot_S2000x11_S11x32_S2000x32_1_0_0_1_n_n.rhsIdx (ix2 r j) ((contrEquiv1 dot_S2000x11_S11x32_S2000x32_1_0_0_1_n_n 11 rfl rfl).symm k) = ix2 k j := funext fun a => Fin.ext (by
    match a with
    | ⟨0, _⟩ => exact (rhs_prod_0 _ _).trans hk
    | ⟨1, _⟩ => exact rhs_prod_1 _ _)
  rw [el, er]

/-! ## The body's arithmetic at an index -/

/-- The body's result at row r and column j of its block: the layer's affine part — the aggregated row through the
    first weight block, plus the bias, plus the node's own row through the second — normalised with the running
    statistics and rectified. The format changes and the same-shape casts are the identity; the one-row operands are
    read at their single row. -/
theorem body_at (agg x : Vec Ideal S2000x11 .f32) (wl wr : Vec Ideal S11x32 .f32)
    (bl mu var g be : Vec Ideal S1x32 .f32) (r : Fin 2000) (j : Fin 32) :
    k0_pay1 (F := Ideal) agg x wl wr bl mu var g be (ix2 r j)
      = Sage.bnRelu ((∑ k : Fin 11, agg (ix2 r k) * wl (ix2 k j)) + bl (ix2 0 j) + ∑ k : Fin 11, x (ix2 r k) * wr (ix2 k j))
          (mu (ix2 0 j)) (var (ix2 0 j)) (g (ix2 0 j)) (be (ix2 0 j)) := by
  unfold k0_pay1
  simp only [maximumf_apply, addf_apply, mulf_apply, subf_apply, broadcast_apply, prod_at, truncf_apply,
    shapeCast_self, broadcastTo_1b_ab_apply]
  rfl

/-! ## From blocks to the array

Fifty grid points, row blocks of 2000: point t stages rows 2000·t … 2000·t + 1999 of the two feature arrays and of the
result, and the whole of every weight, bias and statistics array. -/

theorem origin2 : (![0, 0] : Fin 2 → Nat) = fun _ => 0 := funext fun a => by fin_cases a <;> rfl

/-- The block indices, decided over the fifty points: the two feature windows sit on the result's row block and at
    column block 0; every other input window is at block (0, 0); the result's row block is below fifty and its column
    block is 0. -/
theorem block_indices : ∀ t : Fin cfg0.N, win0_0.index t (0 : Fin 2) = win0_9.index t (0 : Fin 2)
    ∧ win0_0.index t (1 : Fin 2) = 0
    ∧ win0_1.index t (0 : Fin 2) = win0_9.index t (0 : Fin 2)
    ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) ≤ 49 ∧ win0_9.index t (1 : Fin 2) = 0 :=
  (by decide +kernel : ∀ t : Fin grid0.N, _)

/-- Every row block of the result is some point's. -/
theorem block_onto : ∀ b : Fin 50, ∃ t : Fin cfg0.N, win0_9.index t = ![b.val, 0] :=
  (by decide +kernel : ∀ b : Fin 50, ∃ t : Fin grid0.N, win0_9.index t = ![b.val, 0])

/-- A row block of the aggregated features: entry (p, k) of point t's block is entry (2000·b + p, k) of the array, b
    the result's row block at t. -/
theorem agg_block (c : Dev nD) (t : Fin cfg0.N) (y : S2000x11.Idx) (i : S100000x11.Idx)
    (h0 : (i 0).val = win0_9.index t (0 : Fin 2) * 2000 + (y 0).val) (h1 : (i 1).val = (y 1).val) :
    (iblk0 (F := Ideal) V c 0 t : Vec Ideal S2000x11 .f32) y = aggA V c i := by
  obtain ⟨e0, e1, -⟩ := block_indices t
  unfold iblk0
  rw [View.read_apply]
  show V c main_v24 _ = V c main_v24 _
  congr 1
  funext a
  apply Fin.ext
  match a with
  | ⟨0, _⟩ => show win0_0.index t (0 : Fin 2) * 2000 + 1 * (y 0).val = (i 0).val; omega
  | ⟨1, _⟩ => show win0_0.index t (1 : Fin 2) * 11 + 1 * (y 1).val = (i 1).val; omega

/-- The same rows of the node features. -/
theorem x_block (c : Dev nD) (t : Fin cfg0.N) (y : S2000x11.Idx) (i : S100000x11.Idx)
    (h0 : (i 0).val = win0_9.index t (0 : Fin 2) * 2000 + (y 0).val) (h1 : (i 1).val = (y 1).val) :
    (iblk0 (F := Ideal) V c 1 t : Vec Ideal S2000x11 .f32) y = xA V c i := by
  obtain ⟨-, -, e0, e1, -⟩ := block_indices t
  unfold iblk0
  rw [View.read_apply]
  show V c main_arg0 _ = V c main_arg0 _
  congr 1
  funext a
  apply Fin.ext
  match a with
  | ⟨0, _⟩ => show win0_1.index t (0 : Fin 2) * 2000 + 1 * (y 0).val = (i 0).val; omega
  | ⟨1, _⟩ => show win0_1.index t (1 : Fin 2) * 11 + 1 * (y 1).val = (i 1).val; omega

/-- The first weight array is staged whole at every point. -/
theorem wl_block (c : Dev nD) (t : Fin cfg0.N) (y : S11x32.Idx) :
    (iblk0 (F := Ideal) V c 2 t : Vec Ideal S11x32 .f32) y = wlA V c y := by
  obtain ⟨-, -, -, -, e0, e1, -⟩ := block_indices t
  unfold iblk0
  rw [View.read_apply]
  show V c main_arg2 _ = V c main_arg2 _
  congr 1
  funext a
  apply Fin.ext
  match a with
  | ⟨0, _⟩ => show win0_2.index t (0 : Fin 2) * 11 + 1 * (y 0).val = (y 0).val; omega
  | ⟨1, _⟩ => show win0_2.index t (1 : Fin 2) * 32 + 1 * (y 1).val = (y 1).val; omega

/-- The first bias row is staged whole at every point. -/
theorem bl_block (c : Dev nD) (t : Fin cfg0.N) (y : S1x32.Idx) :
    (iblk0 (F := Ideal) V c 3 t : Vec Ideal S1x32 .f32) y = blA V c y := by
  obtain ⟨-, -, -, -, -, -, e0, e1, -⟩ := block_indices t
  unfold iblk0
  rw [View.read_apply]
  show V c main_v25 _ = V c main_v25 _
  congr 1
  funext a
  apply Fin.ext
  match a with
  | ⟨0, _⟩ => show win0_3.index t (0 : Fin 2) * 1 + 1 * (y 0).val = (y 0).val; omega
  | ⟨1, _⟩ => show win0_3.index t (1 : Fin 2) * 32 + 1 * (y 1).val = (y 1).val; omega

/-- The second weight array is staged whole at every point. -/
theorem wr_block (c : Dev nD) (t : Fin cfg0.N) (y : S11x32.Idx) :
    (iblk0 (F := Ideal) V c 4 t : Vec Ideal S11x32 .f32) y = wrA V c y := by
  obtain ⟨-, -, -, -, -, -, -, -, e0, e1, -⟩ := block_indices t
  unfold iblk0
  rw [View.read_apply]
  show V c main_arg4 _ = V c main_arg4 _
  congr 1
  funext a
  apply Fin.ext
  match a with
  | ⟨0, _⟩ => show win0_4.index t (0 : Fin 2) * 11 + 1 * (y 0).val = (y 0).val; omega
  | ⟨1, _⟩ => show win0_4.index t (1 : Fin 2) * 32 + 1 * (y 1).val = (y 1).val; omega

/-- The scale row is staged whole at every point. -/
theorem g_block (c : Dev nD) (t : Fin cfg0.N) (y : S1x32.Idx) :
    (iblk0 (F := Ideal) V c 5 t : Vec Ideal S1x32 .f32) y = gA V c y := by
  obtain ⟨-, -, -, -, -, -, -, -, -, -, e0, e1, -⟩ := block_indices t
  unfold iblk0
  rw [View.read_apply]
  show V c main_v26 _ = V c main_v26 _
  congr 1
  funext a
  apply Fin.ext
  match a with
  | ⟨0, _⟩ => show win0_5.index t (0 : Fin 2) * 1 + 1 * (y 0).val = (y 0).val; omega
  | ⟨1, _⟩ => show win0_5.index t (1 : Fin 2) * 32 + 1 * (y 1).val = (y 1).val; omega

/-- The shift row is staged whole at every point. -/
theorem be_block (c : Dev nD) (t : Fin cfg0.N) (y : S1x32.Idx) :
    (iblk0 (F := Ideal) V c 6 t : Vec Ideal S1x32 .f32) y = beA V c y := by
  obtain ⟨-, -, -, -, -, -, -, -, -, -, -, -, e0, e1, -⟩ := block_indices t
  unfold iblk0
  rw [View.read_apply]
  show V c main_v27 _ = V c main_v27 _
  congr 1
  funext a
  apply Fin.ext
  match a with
  | ⟨0, _⟩ => show win0_6.index t (0 : Fin 2) * 1 + 1 * (y 0).val = (y 0).val; omega
  | ⟨1, _⟩ => show win0_6.index t (1 : Fin 2) * 32 + 1 * (y 1).val = (y 1).val; omega

/-- The running-mean row is staged whole at every point. -/
theorem mu_block (c : Dev nD) (t : Fin cfg0.N) (y : S1x32.Idx) :
    (iblk0 (F := Ideal) V c 7 t : Vec Ideal S1x32 .f32) y = muA V c y := by
  obtain ⟨-, -, -, -, -, -, -, -, -, -, -, -, -, -, e0, e1, -⟩ := block_indices t
  unfold iblk0
  rw [View.read_apply]
  show V c main_v28 _ = V c main_v28 _
  congr 1
  funext a
  apply Fin.ext
  match a with
  | ⟨0, _⟩ => show win0_7.index t (0 : Fin 2) * 1 + 1 * (y 0).val = (y 0).val; omega
  | ⟨1, _⟩ => show win0_7.index t (1 : Fin 2) * 32 + 1 * (y 1).val = (y 1).val; omega

/-- The running-variance row is staged whole at every point. -/
theorem var_block (c : Dev nD) (t : Fin cfg0.N) (y : S1x32.Idx) :
    (iblk0 (F := Ideal) V c 8 t : Vec Ideal S1x32 .f32) y = varA V c y := by
  obtain ⟨-, -, -, -, -, -, -, -, -, -, -, -, -, -, -, -, e0, e1, -⟩ := block_indices t
  unfold iblk0
  rw [View.read_apply]
  show V c main_v29 _ = V c main_v29 _
  congr 1
  funext a
  apply Fin.ext
  match a with
  | ⟨0, _⟩ => show win0_8.index t (0 : Fin 2) * 1 + 1 * (y 0).val = (y 0).val; omega
  | ⟨1, _⟩ => show win0_8.index t (1 : Fin 2) * 32 + 1 * (y 1).val = (y 1).val; omega

/-- What point t's body leaves at entry (p, q) of its block is the layer's value at the array entry that block entry
    covers: row 2000·b + p, column q. -/
theorem body_block (c : Dev nD) (t : Fin cfg0.N) (p : Fin 2000) (q : Fin 32) (i : S100000x32.Idx)
    (h0 : (i 0).val = win0_9.index t (0 : Fin 2) * 2000 + p.val) (h1 : (i 1).val = q.val) :
    k0_pay1 (F := Ideal) (iblk0 V c 0 t) (iblk0 V c 1 t) (iblk0 V c 2 t) (iblk0 V c 4 t) (iblk0 V c 3 t)
        (iblk0 V c 7 t) (iblk0 V c 8 t) (iblk0 V c 5 t) (iblk0 V c 6 t) (ix2 p q) = G0 V c i := by
  refine (body_at _ _ _ _ _ _ _ _ _ p q).trans ?_
  have hq : q = (⟨(i 1).val, (i 1).isLt⟩ : Fin 32) := Fin.ext h1.symm
  have hA : ∀ k : Fin 11, (iblk0 (F := Ideal) V c 0 t : Vec Ideal S2000x11 .f32) (ix2 p k)
      = aggA V c (ix2 (⟨(i 0).val, (i 0).isLt⟩ : Fin 100000) k) := fun k => agg_block V c t _ _ h0 rfl
  have hX : ∀ k : Fin 11, (iblk0 (F := Ideal) V c 1 t : Vec Ideal S2000x11 .f32) (ix2 p k)
      = xA V c (ix2 (⟨(i 0).val, (i 0).isLt⟩ : Fin 100000) k) := fun k => x_block V c t _ _ h0 rfl
  simp only [hA, hX, wl_block, wr_block, bl_block, g_block, be_block, mu_block, var_block]
  rw [hq]
  rfl

/-- What point t writes back is block t of the layer's activations. -/
theorem writeback_eq (c : Dev nD) (t : Fin cfg0.N) :
    (dat0 (F := Ideal) V c).flushed 9 t = ((cfg0.win 9).blk t).view.read (Elt Ideal) (G0 V c) := by
  show (cfg0.win 9).cut (grid0.coords t) ((dat0 (F := Ideal) V c).after 9 t) = _
  rw [after0_9]
  unfold out0_9
  rw [View.canon_unit_zero origin2]
  simp only [View.ld_unit_zero (S := S2000x11) origin2, View.ld_unit_zero (S := S11x32) origin2,
    View.ld_unit_zero (S := S1x32) origin2]
  obtain ⟨-, -, -, -, -, -, -, -, -, -, -, -, -, -, -, -, -, -, -, e1⟩ := block_indices t
  funext y
  obtain ⟨p, q, rfl⟩ : ∃ (p : Fin 2000) (q : Fin 32), y = ix2 p q := ⟨y 0, y 1, eq_ix2 y⟩
  show k0_pay1 (F := Ideal) (iblk0 V c 0 t) (iblk0 V c 1 t) (iblk0 V c 2 t) (iblk0 V c 4 t) (iblk0 V c 3 t)
      (iblk0 V c 7 t) (iblk0 V c 8 t) (iblk0 V c 5 t) (iblk0 V c 6 t) (ix2 p q)
    = G0 V c (((cfg0.win 9).blk t).view.emb (ix2 p q))
  refine body_block V c t p q _ ?_ ?_
  · show win0_9.index t (0 : Fin 2) * 2000 + 1 * p.val = win0_9.index t (0 : Fin 2) * 2000 + p.val; omega
  · show win0_9.index t (1 : Fin 2) * 32 + 1 * q.val = q.val; omega

/-- An index of the result array is in point t's block iff each coordinate is in the block's range on its axis. -/
theorem mem_block (t : Fin cfg0.N) (i : S100000x32.Idx) :
    i ∈ ((cfg0.win 9).blk t).view.set ↔ ∀ a : Fin 2, win0_9.index t a * S2000x32.size a ≤ (i a).val
      ∧ (i a).val < win0_9.index t a * S2000x32.size a + S2000x32.size a := by
  show i ∈ ((View.whole main_v30).slice (win0_9.rect t)).set ↔ _
  rw [View.set_slice_whole, Rect.mem_set_unit]
  exact Iff.rfl

/-- Every entry of the result array is written back by some point: row r by point r / 2000. -/
theorem covered (i : S100000x32.Idx) :
    ∃ t : Fin cfg0.N, (cfg0.win 9).flush t = true ∧ i ∈ ((cfg0.win 9).blk t).view.set := by
  have hi0 : (i 0).val < 100000 := (i 0).isLt
  have hi1 : (i 1).val < 32 := (i 1).isLt
  obtain ⟨t, ht⟩ := block_onto ⟨(i 0).val / 2000, by omega⟩
  have b0 : win0_9.index t (0 : Fin 2) = (i 0).val / 2000 := congrFun ht 0
  have b1 : win0_9.index t (1 : Fin 2) = 0 := congrFun ht 1
  refine ⟨t, flush0_9 t, ?_⟩
  rw [mem_block]
  intro a
  match a with
  | ⟨0, _⟩ => show win0_9.index t (0 : Fin 2) * 2000 ≤ (i 0).val ∧ (i 0).val < win0_9.index t (0 : Fin 2) * 2000 + 2000; omega
  | ⟨1, _⟩ => show win0_9.index t (1 : Fin 2) * 32 ≤ (i 1).val ∧ (i 1).val < win0_9.index t (1 : Fin 2) * 32 + 32; omega

/-- After the first pallas_call's fifty grid points the output array holds the first layer's activations. -/
theorem region0_value (c : Dev nD) : (dat0 (F := Ideal) V c).arrAt 9 cfg0.N = G0 V c :=
  (dat0 (F := Ideal) V c).arrAt_eq_of_cover 9 (G0 V c) (fun t _ => writeback_eq V c t) covered

end Cert.KernelIdeal.Region0

end
-- ==== Proof.Region1Value.lean ====
import proofs.«100888_j64295660421273_1_alg».proof.Proof.KernelIdealFrame
import proofs.«100888_j64295660421273_1_alg».proof.Proof.SageSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Idealize.ShloMosaic Idealize.ShloMosaic.TcCoe Idealize.SL.Sem Idealize.ShloMosaic.ValueIdx
open Cert.KernelIdeal Cert.KernelIdeal.Gen
open Idealize.ShloMosaic.Pipeline (Dat Cfg Window)

-- The TensorCore's buffer contents when the region is entered: the parameter the region's proof data are stated at.
variable (V : (c : Dev nD) → (b : Ref sig .tc) → Buf (Elt Ideal) ((c : Thread nD τ).loc b))

/-! The second pallas_call's arrays as it finds them, each at its literal type. -/
abbrev aggA (c : Dev nD) : S100000x32.Idx → EReal := V c main_v43
abbrev hA (c : Dev nD) : S100000x32.Idx → EReal := V c main_v30
abbrev wlA (c : Dev nD) : S32x32.Idx → EReal := V c main_arg9
abbrev blA (c : Dev nD) : S1x32.Idx → EReal := V c main_v44
abbrev wrA (c : Dev nD) : S32x32.Idx → EReal := V c main_arg11
abbrev gA (c : Dev nD) : S1x32.Idx → EReal := V c main_v45
abbrev beA (c : Dev nD) : S1x32.Idx → EReal := V c main_v46
abbrev muA (c : Dev nD) : S1x32.Idx → EReal := V c main_v47
abbrev varA (c : Dev nD) : S1x32.Idx → EReal := V c main_v48
abbrev w1A (c : Dev nD) : S32x64.Idx → EReal := V c main_arg16
abbrev b1A (c : Dev nD) : S1x64.Idx → EReal := V c main_v49
abbrev w2A (c : Dev nD) : S64x1.Idx → EReal := V c main_arg18
abbrev b2A (c : Dev nD) : S1x1.Idx → EReal := V c main_v50

/-- The network's output column as ONE function of the arrays the region finds: entry (n, 0) is the perceptron head
    applied to the second SAGE layer's normalised, rectified activations at node n. -/
def G1 (c : Dev nD) : S100000x1.Idx → EReal := fun i =>
  Sage.head
    (Sage.layer (fun n k => aggA V c (ix2 n k)) (fun n k => hA V c (ix2 n k))
      (fun k j => wlA V c (ix2 k j)) (fun k j => wrA V c (ix2 k j))
      (fun j => blA V c (ix2 0 j)) (fun j => muA V c (ix2 0 j)) (fun j => varA V c (ix2 0 j))
      (fun j => gA V c (ix2 0 j)) (fun j => beA V c (ix2 0 j)))
    (fun k q => w1A V c (ix2 k q)) (fun q => b1A V c (ix2 0 q))
    (fun q p => w2A V c (ix2 q p)) (fun p => b2A V c (ix2 0 p))
    ⟨(i 0).val, (i 0).isLt⟩ ⟨(i 1).val, (i 1).isLt⟩

/-! The SAGE layer's contraction (a row block's 32 features through a 32 by 32 weight): the left operand's index keeps the result's row and takes the contraction coordinate as its
    column; the right operand's index takes the contraction coordinate as its row and keeps the result's column. -/
theorem lhs_sage_0 (i : S2000x32.Idx) (q : dot_S2000x32_S32x32_S2000x32_1_0_0_1_n_n.contr.Idx) :
    (dot_S2000x32_S32x32_S2000x32_1_0_0_1_n_n.lhsIdx i q 0).val = (i 0).val := by
  unfold DotDims.lhsIdx
  rw [dif_neg (show ¬(0 : Fin S2000x32.rank) ∈ dot_S2000x32_S32x32_S2000x32_1_0_0_1_n_n.lhsBatch by decide), dif_pos (show (0 : Fin S2000x32.rank) ∈ dot_S2000x32_S32x32_S2000x32_1_0_0_1_n_n.lhsNonContracting by decide)]
  rfl
theorem lhs_sage_1 (i : S2000x32.Idx) (q : dot_S2000x32_S32x32_S2000x32_1_0_0_1_n_n.contr.Idx) :
    (dot_S2000x32_S32x32_S2000x32_1_0_0_1_n_n.lhsIdx i q 1).val = (q ⟨0, by decide⟩).val :=
  dot_S2000x32_S32x32_S2000x32_1_0_0_1_n_n.lhsIdx_val_of_single rfl i q
theorem rhs_sage_0 (i : S2000x32.Idx) (q : dot_S2000x32_S32x32_S2000x32_1_0_0_1_n_n.contr.Idx) :
    (dot_S2000x32_S32x32_S2000x32_1_0_0_1_n_n.rhsIdx i q 0).val = (q ⟨0, by decide⟩).val :=
  dot_S2000x32_S32x32_S2000x32_1_0_0_1_n_n.rhsIdx_val_of_single rfl i q
theorem rhs_sage_1 (i : S2000x32.Idx) (q : dot_S2000x32_S32x32_S2000x32_1_0_0_1_n_n.contr.Idx) :
    (dot_S2000x32_S32x32_S2000x32_1_0_0_1_n_n.rhsIdx i q 1).val = (i 1).val := by
  unfold DotDims.rhsIdx
  rw [dif_neg (show ¬(1 : Fin S32x32.rank) ∈ dot_S2000x32_S32x32_S2000x32_1_0_0_1_n_n.rhsBatch by decide), dif_pos (show (1 : Fin S32x32.rank) ∈ dot_S2000x32_S32x32_S2000x32_1_0_0_1_n_n.rhsNonContracting by decide)]
  rfl

/-- The SAGE layer's block product into the zero block, at entry (p, j): the sum over the 32 contraction coordinates of the
    left operand's row p times the right operand's column j. -/
theorem matmul_sage_apply {φ₁ φ₂ : FTy} (l : FVec Ideal S2000x32 φ₁) (r : FVec Ideal S32x32 φ₂) (p : Fin 2000) (j : Fin 32) :
    matmul dot_S2000x32_S32x32_S2000x32_1_0_0_1_n_n none l r (constant (F := Ideal) S2000x32 .f32 0x00000000#32) (ix2 p j)
      = ∑ k : Fin 32, l (ix2 p k) * r (ix2 k j) := by
  simp only [matmul]
  rw [Ideal.matmul_constant_zero_apply, ← Equiv.sum_comp (ValueIdx.contrEquiv1 dot_S2000x32_S32x32_S2000x32_1_0_0_1_n_n 32 rfl rfl).symm]
  refine Finset.sum_congr rfl fun k _ => ?_
  have hk := ValueIdx.contrEquiv1_symm_val dot_S2000x32_S32x32_S2000x32_1_0_0_1_n_n 32 rfl rfl k
  have el : dot_S2000x32_S32x32_S2000x32_1_0_0_1_n_n.lhsIdx (ix2 p j) ((ValueIdx.contrEquiv1 dot_S2000x32_S32x32_S2000x32_1_0_0_1_n_n 32 rfl rfl).symm k) = ix2 p k := funext fun a => Fin.ext (by
    match a with
    | ⟨0, _⟩ => exact lhs_sage_0 _ _
    | ⟨1, _⟩ => exact (lhs_sage_1 _ _).trans hk)
  have er : dot_S2000x32_S32x32_S2000x32_1_0_0_1_n_n.rhsIdx (ix2 p j) ((ValueIdx.contrEquiv1 dot_S2000x32_S32x32_S2000x32_1_0_0_1_n_n 32 rfl rfl).symm k) = ix2 k j := funext fun a => Fin.ext (by
    match a with
    | ⟨0, _⟩ => exact (rhs_sage_0 _ _).trans hk
    | ⟨1, _⟩ => exact rhs_sage_1 _ _)
  rw [el, er]

/-! The head's first contraction (32 activations through the 32 by 64 weight): the left operand's index keeps the result's row and takes the contraction coordinate as its
    column; the right operand's index takes the contraction coordinate as its row and keeps the result's column. -/
theorem lhs_hidden_0 (i : S2000x64.Idx) (q : dot_S2000x32_S32x64_S2000x64_1_0_0_1_n_n.contr.Idx) :
    (dot_S2000x32_S32x64_S2000x64_1_0_0_1_n_n.lhsIdx i q 0).val = (i 0).val := by
  unfold DotDims.lhsIdx
  rw [dif_neg (show ¬(0 : Fin S2000x32.rank) ∈ dot_S2000x32_S32x64_S2000x64_1_0_0_1_n_n.lhsBatch by decide), dif_pos (show (0 : Fin S2000x32.rank) ∈ dot_S2000x32_S32x64_S2000x64_1_0_0_1_n_n.lhsNonContracting by decide)]
  rfl
theorem lhs_hidden_1 (i : S2000x64.Idx) (q : dot_S2000x32_S32x64_S2000x64_1_0_0_1_n_n.contr.Idx) :
    (dot_S2000x32_S32x64_S2000x64_1_0_0_1_n_n.lhsIdx i q 1).val = (q ⟨0, by decide⟩).val :=
  dot_S2000x32_S32x64_S2000x64_1_0_0_1_n_n.lhsIdx_val_of_single rfl i q
theorem rhs_hidden_0 (i : S2000x64.Idx) (q : dot_S2000x32_S32x64_S2000x64_1_0_0_1_n_n.contr.Idx) :
    (dot_S2000x32_S32x64_S2000x64_1_0_0_1_n_n.rhsIdx i q 0).val = (q ⟨0, by decide⟩).val :=
  dot_S2000x32_S32x64_S2000x64_1_0_0_1_n_n.rhsIdx_val_of_single rfl i q
theorem rhs_hidden_1 (i : S2000x64.Idx) (q : dot_S2000x32_S32x64_S2000x64_1_0_0_1_n_n.contr.Idx) :
    (dot_S2000x32_S32x64_S2000x64_1_0_0_1_n_n.rhsIdx i q 1).val = (i 1).val := by
  unfold DotDims.rhsIdx
  rw [dif_neg (show ¬(1 : Fin S32x64.rank) ∈ dot_S2000x32_S32x64_S2000x64_1_0_0_1_n_n.rhsBatch by decide), dif_pos (show (1 : Fin S32x64.rank) ∈ dot_S2000x32_S32x64_S2000x64_1_0_0_1_n_n.rhsNonContracting by decide)]
  rfl

/-- The head's first block product into the zero block, at entry (p, j): the sum over the 32 contraction coordinates of the
    left operand's row p times the right operand's column j. -/
theorem matmul_hidden_apply {φ₁ φ₂ : FTy} (l : FVec Ideal S2000x32 φ₁) (r : FVec Ideal S32x64 φ₂) (p : Fin 2000) (j : Fin 64) :
    matmul dot_S2000x32_S32x64_S2000x64_1_0_0_1_n_n none l r (constant (F := Ideal) S2000x64 .f32 0x00000000#32) (ix2 p j)
      = ∑ k : Fin 32, l (ix2 p k) * r (ix2 k j) := by
  simp only [matmul]
  rw [Ideal.matmul_constant_zero_apply, ← Equiv.sum_comp (ValueIdx.contrEquiv1 dot_S2000x32_S32x64_S2000x64_1_0_0_1_n_n 32 rfl rfl).symm]
  refine Finset.sum_congr rfl fun k _ => ?_
  have hk := ValueIdx.contrEquiv1_symm_val dot_S2000x32_S32x64_S2000x64_1_0_0_1_n_n 32 rfl rfl k
  have el : dot_S2000x32_S32x64_S2000x64_1_0_0_1_n_n.lhsIdx (ix2 p j) ((ValueIdx.contrEquiv1 dot_S2000x32_S32x64_S2000x64_1_0_0_1_n_n 32 rfl rfl).symm k) = ix2 p k := funext fun a => Fin.ext (by
    match a with
    | ⟨0, _⟩ => exact lhs_hidden_0 _ _
    | ⟨1, _⟩ => exact (lhs_hidden_1 _ _).trans hk)
  have er : dot_S2000x32_S32x64_S2000x64_1_0_0_1_n_n.rhsIdx (ix2 p j) ((ValueIdx.contrEquiv1 dot_S2000x32_S32x64_S2000x64_1_0_0_1_n_n 32 rfl rfl).symm k) = ix2 k j := funext fun a => Fin.ext (by
    match a with
    | ⟨0, _⟩ => exact (rhs_hidden_0 _ _).trans hk
    | ⟨1, _⟩ => exact rhs_hidden_1 _ _)
  rw [el, er]

/-! The head's second contraction (64 hidden units through the 64 by 1 weight): the left operand's index keeps the result's row and takes the contraction coordinate as its
    column; the right operand's index takes the contraction coordinate as its row and keeps the result's column. -/
theorem lhs_out_0 (i : S2000x1.Idx) (q : dot_S2000x64_S64x1_S2000x1_1_0_0_1_n_n.contr.Idx) :
    (dot_S2000x64_S64x1_S2000x1_1_0_0_1_n_n.lhsIdx i q 0).val = (i 0).val := by
  unfold DotDims.lhsIdx
  rw [dif_neg (show ¬(0 : Fin S2000x64.rank) ∈ dot_S2000x64_S64x1_S2000x1_1_0_0_1_n_n.lhsBatch by decide), dif_pos (show (0 : Fin S2000x64.rank) ∈ dot_S2000x64_S64x1_S2000x1_1_0_0_1_n_n.lhsNonContracting by decide)]
  rfl
theorem lhs_out_1 (i : S2000x1.Idx) (q : dot_S2000x64_S64x1_S2000x1_1_0_0_1_n_n.contr.Idx) :
    (dot_S2000x64_S64x1_S2000x1_1_0_0_1_n_n.lhsIdx i q 1).val = (q ⟨0, by decide⟩).val :=
  dot_S2000x64_S64x1_S2000x1_1_0_0_1_n_n.lhsIdx_val_of_single rfl i q
theorem rhs_out_0 (i : S2000x1.Idx) (q : dot_S2000x64_S64x1_S2000x1_1_0_0_1_n_n.contr.Idx) :
    (dot_S2000x64_S64x1_S2000x1_1_0_0_1_n_n.rhsIdx i q 0).val = (q ⟨0, by decide⟩).val :=
  dot_S2000x64_S64x1_S2000x1_1_0_0_1_n_n.rhsIdx_val_of_single rfl i q
theorem rhs_out_1 (i : S2000x1.Idx) (q : dot_S2000x64_S64x1_S2000x1_1_0_0_1_n_n.contr.Idx) :
    (dot_S2000x64_S64x1_S2000x1_1_0_0_1_n_n.rhsIdx i q 1).val = (i 1).val := by
  unfold DotDims.rhsIdx
  rw [dif_neg (show ¬(1 : Fin S64x1.rank) ∈ dot_S2000x64_S64x1_S2000x1_1_0_0_1_n_n.rhsBatch by decide), dif_pos (show (1 : Fin S64x1.rank) ∈ dot_S2000x64_S64x1_S2000x1_1_0_0_1_n_n.rhsNonContracting by decide)]
  rfl

/-- The head's second block product into the zero block, at entry (p, j): the sum over the 64 contraction coordinates of the
    left operand's row p times the right operand's column j. -/
theorem matmul_out_apply {φ₁ φ₂ : FTy} (l : FVec Ideal S2000x64 φ₁) (r : FVec Ideal S64x1 φ₂) (p : Fin 2000) (j : Fin 1) :
    matmul dot_S2000x64_S64x1_S2000x1_1_0_0_1_n_n none l r (constant (F := Ideal) S2000x1 .f32 0x00000000#32) (ix2 p j)
      = ∑ k : Fin 64, l (ix2 p k) * r (ix2 k j) := by
  simp only [matmul]
  rw [Ideal.matmul_constant_zero_apply, ← Equiv.sum_comp (ValueIdx.contrEquiv1 dot_S2000x64_S64x1_S2000x1_1_0_0_1_n_n 64 rfl rfl).symm]
  refine Finset.sum_congr rfl fun k _ => ?_
  have hk := ValueIdx.contrEquiv1_symm_val dot_S2000x64_S64x1_S2000x1_1_0_0_1_n_n 64 rfl rfl k
  have el : dot_S2000x64_S64x1_S2000x1_1_0_0_1_n_n.lhsIdx (ix2 p j) ((ValueIdx.contrEquiv1 dot_S2000x64_S64x1_S2000x1_1_0_0_1_n_n 64 rfl rfl).symm k) = ix2 p k := funext fun a => Fin.ext (by
    match a with
    | ⟨0, _⟩ => exact lhs_out_0 _ _
    | ⟨1, _⟩ => exact (lhs_out_1 _ _).trans hk)
  have er : dot_S2000x64_S64x1_S2000x1_1_0_0_1_n_n.rhsIdx (ix2 p j) ((ValueIdx.contrEquiv1 dot_S2000x64_S64x1_S2000x1_1_0_0_1_n_n 64 rfl rfl).symm k) = ix2 k j := funext fun a => Fin.ext (by
    match a with
    | ⟨0, _⟩ => exact (rhs_out_0 _ _).trans hk
    | ⟨1, _⟩ => exact rhs_out_1 _ _)
  rw [el, er]

/-- The reciprocal square root of a block is taken entry by entry. -/
theorem rsqrt_apply {s : Shape} (v : FVec Ideal s .f32) (i : s.Idx) : rsqrt v i = Ideal.rsqrt (v i) := rfl

/-- The SAGE layer with its batch normalisation, before the rectifier, at entry (p, j) of a row block: the aggregated row p
    through column j of w_l, plus the bias, plus the node's own row p through column j of w_r; minus the running mean,
    times the reciprocal square root of the running variance plus epsilon, times the scale, plus the shift. Only row p of
    the two feature blocks and column j of the parameters enter. -/
theorem sage_norm_apply (a h : Vec Ideal S2000x32 .f32) (wl wr : Vec Ideal S32x32 .f32)
    (bl mu var g be : Vec Ideal S1x32 .f32) (p : Fin 2000) (j : Fin 32) :
    k1_pay2 a h wl wr bl mu var g be (ix2 p j)
      = ((∑ k : Fin 32, a (ix2 p k) * wl (ix2 k j)) + bl (ix2 0 j) + (∑ k : Fin 32, h (ix2 p k) * wr (ix2 k j)) - mu (ix2 0 j))
          * Ideal.rsqrt (var (ix2 0 j) + Sage.eps) * g (ix2 0 j) + be (ix2 0 j) := by
  unfold k1_pay2
  simp only [addf_apply, subf_apply, mulf_apply, rsqrt_apply, broadcastTo_1b_ab_apply, shapeCast_self,
    matmul_sage_apply, truncf_apply, broadcast_apply]
  rfl

/-- The rectifier's floor is the zero word at every entry. -/
theorem floor_apply (i : S2000x32.Idx) : k1_pay3 (F := Ideal) i = Sage.zero := rfl

/-- The rectified, normalised SAGE layer at entry (p, j) of a row block is the specification's batch-norm-and-ReLU of the
    layer's affine form. -/
theorem sage_relu_apply (a h : Vec Ideal S2000x32 .f32) (wl wr : Vec Ideal S32x32 .f32)
    (bl mu var g be : Vec Ideal S1x32 .f32) (p : Fin 2000) (j : Fin 32) :
    max (k1_pay2 a h wl wr bl mu var g be (ix2 p j)) (k1_pay3 (F := Ideal) (ix2 p j))
      = Sage.bnRelu ((∑ k : Fin 32, a (ix2 p k) * wl (ix2 k j)) + bl (ix2 0 j) + ∑ k : Fin 32, h (ix2 p k) * wr (ix2 k j))
          (mu (ix2 0 j)) (var (ix2 0 j)) (g (ix2 0 j)) (be (ix2 0 j)) := by
  rw [sage_norm_apply, floor_apply]
  rfl

/-- The perceptron head at entry (p, o) of a row block: the rectified activations' row p through w1 plus b1, rectified,
    through column o of w2, plus b2. Only row p of the two activation blocks enters. -/
theorem head_apply (a z : FVec Ideal S2000x32 .f32) (w1 : Vec Ideal S32x64 .f32) (b1 : Vec Ideal S1x64 .f32)
    (w2 : Vec Ideal S64x1 .f32) (b2 : Vec Ideal S1x1 .f32) (p : Fin 2000) (o : Fin 1) :
    k1_pay1 a z w1 b1 w2 b2 (ix2 p o)
      = (∑ q : Fin 64, max ((∑ k : Fin 32, max (a (ix2 p k)) (z (ix2 p k)) * w1 (ix2 k q)) + b1 (ix2 0 q)) Sage.zero * w2 (ix2 q o))
          + b2 (ix2 0 o) := by
  unfold k1_pay1
  simp only [addf_apply, maximumf_apply, broadcastTo_1b_ab_apply, shapeCast_self,
    matmul_out_apply, matmul_hidden_apply, truncf_apply, broadcast_apply]
  rfl

/-- ONE ENTRY OF A ROW BLOCK. Let the two feature blocks' row p be the arrays' row n, and let every parameter block be its
    whole array. Then entry (p, o) of what the body stores is entry (n, o) of the specification's network: the perceptron
    head of the second SAGE layer's normalised, rectified activations. Only row n of the two feature arrays enters. -/
theorem block_entry_eq
    (x0 x1 : Vec Ideal S2000x32 .f32) (x2 x4 : Vec Ideal S32x32 .f32) (x3 x5 x6 x7 x8 : Vec Ideal S1x32 .f32)
    (x9 : Vec Ideal S32x64 .f32) (x10 : Vec Ideal S1x64 .f32) (x11 : Vec Ideal S64x1 .f32) (x12 : Vec Ideal S1x1 .f32)
    (A H : S100000x32.Idx → EReal) (Wl Wr : S32x32.Idx → EReal) (Bl G Be Mu Var : S1x32.Idx → EReal)
    (W1 : S32x64.Idx → EReal) (B1 : S1x64.Idx → EReal) (W2 : S64x1.Idx → EReal) (B2 : S1x1.Idx → EReal)
    (p : Fin 2000) (o : Fin 1) (n : Fin 100000)
    (h0 : ∀ k : Fin 32, x0 (ix2 p k) = A (ix2 n k)) (h1 : ∀ k : Fin 32, x1 (ix2 p k) = H (ix2 n k))
    (e2 : x2 = Wl) (e3 : x3 = Bl) (e4 : x4 = Wr) (e5 : x5 = G) (e6 : x6 = Be) (e7 : x7 = Mu) (e8 : x8 = Var)
    (e9 : x9 = W1) (e10 : x10 = B1) (e11 : x11 = W2) (e12 : x12 = B2) :
    k1_pay1 (k1_pay2 x0 x1 x2 x4 x3 x7 x8 x5 x6) (k1_pay3 (F := Ideal)) x9 x10 x11 x12 (ix2 p o)
      = Sage.head
          (Sage.layer (fun n k => A (ix2 n k)) (fun n k => H (ix2 n k))
            (fun k j => Wl (ix2 k j)) (fun k j => Wr (ix2 k j))
            (fun j => Bl (ix2 0 j)) (fun j => Mu (ix2 0 j)) (fun j => Var (ix2 0 j))
            (fun j => G (ix2 0 j)) (fun j => Be (ix2 0 j)))
          (fun k q => W1 (ix2 k q)) (fun q => B1 (ix2 0 q))
          (fun q p => W2 (ix2 q p)) (fun p => B2 (ix2 0 p)) n o := by
  subst e2 e3 e4 e5 e6 e7 e8 e9 e10 e11 e12
  rw [head_apply]
  simp only [sage_relu_apply, h0, h1]
  rfl

/-! ## From the row blocks to the array -/

theorem origin_eq : (![0, 0] : Fin 2 → Nat) = fun _ => 0 := funext fun a => by fin_cases a <;> rfl

/-- The index maps, decided over the fifty grid points: the two feature windows move down the rows with the output window,
    whose block index is the point's number, and all three stay in column block zero. -/
theorem row_index_facts : ∀ t : Fin cfg1.N,
    win1_0.index t (0 : Fin 2) = win1_13.index t (0 : Fin 2) ∧ win1_0.index t (1 : Fin 2) = 0
    ∧ win1_1.index t (0 : Fin 2) = win1_13.index t (0 : Fin 2) ∧ win1_1.index t (1 : Fin 2) = 0
    ∧ win1_13.index t (0 : Fin 2) = t.val ∧ win1_13.index t (1 : Fin 2) = 0 :=
  (by decide +kernel : ∀ t : Fin grid1.N, _)

/-- The eleven parameter windows' block index is the origin at every point. -/
theorem param_index_facts : ∀ t : Fin cfg1.N,
    win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = 0 ∧ win1_10.index t (1 : Fin 2) = 0
    ∧ win1_11.index t (0 : Fin 2) = 0 ∧ win1_11.index t (1 : Fin 2) = 0
    ∧ win1_12.index t (0 : Fin 2) = 0 ∧ win1_12.index t (1 : Fin 2) = 0 :=
  (by decide +kernel : ∀ t : Fin grid1.N, _)

/-- Window 2's block at every point is its whole array (the block index stays at the origin). -/
theorem block_wlA (c : Dev nD) (t : Fin cfg1.N) : iblk1 V c 2 t = wlA V c := by
  funext y
  show V c main_arg9 (((cfg1.win 2).blk t).view.emb y) = V c main_arg9 y
  refine congrArg _ (funext fun a => Fin.ext ?_)
  have e0 : win1_2.index t (0 : Fin 2) = 0 := (param_index_facts t).1
  have e1 : win1_2.index t (1 : Fin 2) = 0 := (param_index_facts t).2.1
  match a with
  | ⟨0, _⟩ => show win1_2.index t (0 : Fin 2) * 32 + 1 * (y 0).val = (y 0).val; omega
  | ⟨1, _⟩ => show win1_2.index t (1 : Fin 2) * 32 + 1 * (y 1).val = (y 1).val; omega

/-- Window 3's block at every point is its whole array (the block index stays at the origin). -/
theorem block_blA (c : Dev nD) (t : Fin cfg1.N) : iblk1 V c 3 t = blA V c := by
  funext y
  show V c main_v44 (((cfg1.win 3).blk t).view.emb y) = V c main_v44 y
  refine congrArg _ (funext fun a => Fin.ext ?_)
  have e0 : win1_3.index t (0 : Fin 2) = 0 := (param_index_facts t).2.2.1
  have e1 : win1_3.index t (1 : Fin 2) = 0 := (param_index_facts t).2.2.2.1
  match a with
  | ⟨0, _⟩ => show win1_3.index t (0 : Fin 2) * 1 + 1 * (y 0).val = (y 0).val; omega
  | ⟨1, _⟩ => show win1_3.index t (1 : Fin 2) * 32 + 1 * (y 1).val = (y 1).val; omega

/-- Window 4's block at every point is its whole array (the block index stays at the origin). -/
theorem block_wrA (c : Dev nD) (t : Fin cfg1.N) : iblk1 V c 4 t = wrA V c := by
  funext y
  show V c main_arg11 (((cfg1.win 4).blk t).view.emb y) = V c main_arg11 y
  refine congrArg _ (funext fun a => Fin.ext ?_)
  have e0 : win1_4.index t (0 : Fin 2) = 0 := (param_index_facts t).2.2.2.2.1
  have e1 : win1_4.index t (1 : Fin 2) = 0 := (param_index_facts t).2.2.2.2.2.1
  match a with
  | ⟨0, _⟩ => show win1_4.index t (0 : Fin 2) * 32 + 1 * (y 0).val = (y 0).val; omega
  | ⟨1, _⟩ => show win1_4.index t (1 : Fin 2) * 32 + 1 * (y 1).val = (y 1).val; omega

/-- Window 5's block at every point is its whole array (the block index stays at the origin). -/
theorem block_gA (c : Dev nD) (t : Fin cfg1.N) : iblk1 V c 5 t = gA V c := by
  funext y
  show V c main_v45 (((cfg1.win 5).blk t).view.emb y) = V c main_v45 y
  refine congrArg _ (funext fun a => Fin.ext ?_)
  have e0 : win1_5.index t (0 : Fin 2) = 0 := (param_index_facts t).2.2.2.2.2.2.1
  have e1 : win1_5.index t (1 : Fin 2) = 0 := (param_index_facts t).2.2.2.2.2.2.2.1
  match a with
  | ⟨0, _⟩ => show win1_5.index t (0 : Fin 2) * 1 + 1 * (y 0).val = (y 0).val; omega
  | ⟨1, _⟩ => show win1_5.index t (1 : Fin 2) * 32 + 1 * (y 1).val = (y 1).val; omega

/-- Window 6's block at every point is its whole array (the block index stays at the origin). -/
theorem block_beA (c : Dev nD) (t : Fin cfg1.N) : iblk1 V c 6 t = beA V c := by
  funext y
  show V c main_v46 (((cfg1.win 6).blk t).view.emb y) = V c main_v46 y
  refine congrArg _ (funext fun a => Fin.ext ?_)
  have e0 : win1_6.index t (0 : Fin 2) = 0 := (param_index_facts t).2.2.2.2.2.2.2.2.1
  have e1 : win1_6.index t (1 : Fin 2) = 0 := (param_index_facts t).2.2.2.2.2.2.2.2.2.1
  match a with
  | ⟨0, _⟩ => show win1_6.index t (0 : Fin 2) * 1 + 1 * (y 0).val = (y 0).val; omega
  | ⟨1, _⟩ => show win1_6.index t (1 : Fin 2) * 32 + 1 * (y 1).val = (y 1).val; omega

/-- Window 7's block at every point is its whole array (the block index stays at the origin). -/
theorem block_muA (c : Dev nD) (t : Fin cfg1.N) : iblk1 V c 7 t = muA V c := by
  funext y
  show V c main_v47 (((cfg1.win 7).blk t).view.emb y) = V c main_v47 y
  refine congrArg _ (funext fun a => Fin.ext ?_)
  have e0 : win1_7.index t (0 : Fin 2) = 0 := (param_index_facts t).2.2.2.2.2.2.2.2.2.2.1
  have e1 : win1_7.index t (1 : Fin 2) = 0 := (param_index_facts t).2.2.2.2.2.2.2.2.2.2.2.1
  match a with
  | ⟨0, _⟩ => show win1_7.index t (0 : Fin 2) * 1 + 1 * (y 0).val = (y 0).val; omega
  | ⟨1, _⟩ => show win1_7.index t (1 : Fin 2) * 32 + 1 * (y 1).val = (y 1).val; omega

/-- Window 8's block at every point is its whole array (the block index stays at the origin). -/
theorem block_varA (c : Dev nD) (t : Fin cfg1.N) : iblk1 V c 8 t = varA V c := by
  funext y
  show V c main_v48 (((cfg1.win 8).blk t).view.emb y) = V c main_v48 y
  refine congrArg _ (funext fun a => Fin.ext ?_)
  have e0 : win1_8.index t (0 : Fin 2) = 0 := (param_index_facts t).2.2.2.2.2.2.2.2.2.2.2.2.1
  have e1 : win1_8.index t (1 : Fin 2) = 0 := (param_index_facts t).2.2.2.2.2.2.2.2.2.2.2.2.2.1
  match a with
  | ⟨0, _⟩ => show win1_8.index t (0 : Fin 2) * 1 + 1 * (y 0).val = (y 0).val; omega
  | ⟨1, _⟩ => show win1_8.index t (1 : Fin 2) * 32 + 1 * (y 1).val = (y 1).val; omega

/-- Window 9's block at every point is its whole array (the block index stays at the origin). -/
theorem block_w1A (c : Dev nD) (t : Fin cfg1.N) : iblk1 V c 9 t = w1A V c := by
  funext y
  show V c main_arg16 (((cfg1.win 9).blk t).view.emb y) = V c main_arg16 y
  refine congrArg _ (funext fun a => Fin.ext ?_)
  have e0 : win1_9.index t (0 : Fin 2) = 0 := (param_index_facts t).2.2.2.2.2.2.2.2.2.2.2.2.2.2.1
  have e1 : win1_9.index t (1 : Fin 2) = 0 := (param_index_facts t).2.2.2.2.2.2.2.2.2.2.2.2.2.2.2.1
  match a with
  | ⟨0, _⟩ => show win1_9.index t (0 : Fin 2) * 32 + 1 * (y 0).val = (y 0).val; omega
  | ⟨1, _⟩ => show win1_9.index t (1 : Fin 2) * 64 + 1 * (y 1).val = (y 1).val; omega

/-- Window 10's block at every point is its whole array (the block index stays at the origin). -/
theorem block_b1A (c : Dev nD) (t : Fin cfg1.N) : iblk1 V c 10 t = b1A V c := by
  funext y
  show V c main_v49 (((cfg1.win 10).blk t).view.emb y) = V c main_v49 y
  refine congrArg _ (funext fun a => Fin.ext ?_)
  have e0 : win1_10.index t (0 : Fin 2) = 0 := (param_index_facts t).2.2.2.2.2.2.2.2.2.2.2.2.2.2.2.2.1
  have e1 : win1_10.index t (1 : Fin 2) = 0 := (param_index_facts t).2.2.2.2.2.2.2.2.2.2.2.2.2.2.2.2.2.1
  match a with
  | ⟨0, _⟩ => show win1_10.index t (0 : Fin 2) * 1 + 1 * (y 0).val = (y 0).val; omega
  | ⟨1, _⟩ => show win1_10.index t (1 : Fin 2) * 64 + 1 * (y 1).val = (y 1).val; omega

/-- Window 11's block at every point is its whole array (the block index stays at the origin). -/
theorem block_w2A (c : Dev nD) (t : Fin cfg1.N) : iblk1 V c 11 t = w2A V c := by
  funext y
  show V c main_arg18 (((cfg1.win 11).blk t).view.emb y) = V c main_arg18 y
  refine congrArg _ (funext fun a => Fin.ext ?_)
  have e0 : win1_11.index t (0 : Fin 2) = 0 := (param_index_facts t).2.2.2.2.2.2.2.2.2.2.2.2.2.2.2.2.2.2.1
  have e1 : win1_11.index t (1 : Fin 2) = 0 := (param_index_facts t).2.2.2.2.2.2.2.2.2.2.2.2.2.2.2.2.2.2.2.1
  match a with
  | ⟨0, _⟩ => show win1_11.index t (0 : Fin 2) * 64 + 1 * (y 0).val = (y 0).val; omega
  | ⟨1, _⟩ => show win1_11.index t (1 : Fin 2) * 1 + 1 * (y 1).val = (y 1).val; omega

/-- Window 12's block at every point is its whole array (the block index stays at the origin). -/
theorem block_b2A (c : Dev nD) (t : Fin cfg1.N) : iblk1 V c 12 t = b2A V c := by
  funext y
  show V c main_v50 (((cfg1.win 12).blk t).view.emb y) = V c main_v50 y
  refine congrArg _ (funext fun a => Fin.ext ?_)
  have e0 : win1_12.index t (0 : Fin 2) = 0 := (param_index_facts t).2.2.2.2.2.2.2.2.2.2.2.2.2.2.2.2.2.2.2.2.1
  have e1 : win1_12.index t (1 : Fin 2) = 0 := (param_index_facts t).2.2.2.2.2.2.2.2.2.2.2.2.2.2.2.2.2.2.2.2.2
  match a with
  | ⟨0, _⟩ => show win1_12.index t (0 : Fin 2) * 1 + 1 * (y 0).val = (y 0).val; omega
  | ⟨1, _⟩ => show win1_12.index t (1 : Fin 2) * 1 + 1 * (y 1).val = (y 1).val; omega

/-- WHAT POINT t WRITES BACK is block t of the network's output column: row p of the block is row
    (t's block index) * 2000 + p of the arrays, and the parameter blocks are the whole parameter arrays. -/
theorem flushed_eq (c : Dev nD) (t : Fin cfg1.N) :
    (dat1 (F := Ideal) V c).flushed 13 t = ((cfg1.win 13).blk t).view.read (Elt Ideal) (G1 V c) := by
  show (cfg1.win 13).cut (grid1.coords t) ((dat1 (F := Ideal) V c).after 13 t) = _
  rw [after1_13]
  unfold out1_13
  rw [View.canon_unit_zero origin_eq]
  simp only [View.ld_unit_zero (S := S2000x32) origin_eq, View.ld_unit_zero (S := S32x32) origin_eq,
    View.ld_unit_zero (S := S1x32) origin_eq, View.ld_unit_zero (S := S32x64) origin_eq,
    View.ld_unit_zero (S := S1x64) origin_eq, View.ld_unit_zero (S := S64x1) origin_eq,
    View.ld_unit_zero (S := S1x1) origin_eq]
  obtain ⟨r0, r1, r2, r3, r4, r5⟩ := row_index_facts t
  funext y
  obtain ⟨p, o, rfl⟩ : ∃ (p : Fin 2000) (o : Fin 1), y = ix2 p o := ⟨y 0, y 1, eq_ix2 y⟩
  rw [View.read_apply]
  refine (block_entry_eq (iblk1 V c 0 t) (iblk1 V c 1 t) (iblk1 V c 2 t) (iblk1 V c 4 t)
    (iblk1 V c 3 t) (iblk1 V c 5 t) (iblk1 V c 6 t) (iblk1 V c 7 t) (iblk1 V c 8 t)
    (iblk1 V c 9 t) (iblk1 V c 10 t) (iblk1 V c 11 t) (iblk1 V c 12 t)
    (aggA V c) (hA V c) (wlA V c) (wrA V c) (blA V c) (gA V c) (beA V c) (muA V c) (varA V c)
    (w1A V c) (b1A V c) (w2A V c) (b2A V c) p o
    ⟨(((cfg1.win 13).blk t).view.emb (ix2 p o) 0).val, (((cfg1.win 13).blk t).view.emb (ix2 p o) 0).isLt⟩ ?_ ?_
    (block_wlA V c t) (block_blA V c t) (block_wrA V c t) (block_gA V c t) (block_beA V c t) (block_muA V c t)
    (block_varA V c t) (block_w1A V c t) (block_b1A V c t) (block_w2A V c t) (block_b2A V c t)).trans ?_
  · intro k
    show V c main_v43 (((cfg1.win 0).blk t).view.emb (ix2 p k)) = V c main_v43 _
    refine congrArg _ (funext fun a => Fin.ext ?_)
    match a with
    | ⟨0, _⟩ => show win1_0.index t (0 : Fin 2) * 2000 + 1 * p.val = win1_13.index t (0 : Fin 2) * 2000 + 1 * p.val; omega
    | ⟨1, _⟩ => show win1_0.index t (1 : Fin 2) * 32 + 1 * k.val = k.val; omega
  · intro k
    show V c main_v30 (((cfg1.win 1).blk t).view.emb (ix2 p k)) = V c main_v30 _
    refine congrArg _ (funext fun a => Fin.ext ?_)
    match a with
    | ⟨0, _⟩ => show win1_1.index t (0 : Fin 2) * 2000 + 1 * p.val = win1_13.index t (0 : Fin 2) * 2000 + 1 * p.val; omega
    | ⟨1, _⟩ => show win1_1.index t (1 : Fin 2) * 32 + 1 * k.val = k.val; omega
  · unfold G1
    exact congrArg _ (Subsingleton.elim _ _)

/-- A row of the output column is in point t's block iff each coordinate is in the block's range on its axis. -/
theorem mem_block (t : Fin cfg1.N) (i : S100000x1.Idx) :
    i ∈ ((cfg1.win 13).blk t).view.set ↔ ∀ a : Fin 2, win1_13.index t a * S2000x1.size a ≤ (i a).val ∧ (i a).val < win1_13.index t a * S2000x1.size a + S2000x1.size a := by
  show i ∈ ((View.whole main_v51).slice (win1_13.rect t)).set ↔ _
  rw [View.set_slice_whole, Rect.mem_set_unit]
  exact Iff.rfl

/-- THE BLOCKS COVER THE COLUMN: row r lies in the block of point r / 2000, one of the fifty, and every point writes back. -/
theorem covered (i : S100000x1.Idx) :
    ∃ t : Fin cfg1.N, (cfg1.win 13).flush t = true ∧ i ∈ ((cfg1.win 13).blk t).view.set := by
  have hi0 : (i 0).val < 100000 := (i 0).isLt
  have hi1 : (i 1).val < 1 := (i 1).isLt
  have ht : (i 0).val / 2000 < cfg1.N := by show _ < 50; omega
  obtain ⟨r0, r1, r2, r3, r4, r5⟩ := row_index_facts ⟨(i 0).val / 2000, ht⟩
  have r4' : win1_13.index ⟨(i 0).val / 2000, ht⟩ (0 : Fin 2) = (i 0).val / 2000 := r4
  refine ⟨⟨(i 0).val / 2000, ht⟩, flush1_13 _, ?_⟩
  rw [mem_block]
  intro a
  match a with
  | ⟨0, _⟩ => show win1_13.index ⟨(i 0).val / 2000, ht⟩ (0 : Fin 2) * 2000 ≤ (i 0).val ∧ (i 0).val < win1_13.index ⟨(i 0).val / 2000, ht⟩ (0 : Fin 2) * 2000 + 2000; omega
  | ⟨1, _⟩ => show win1_13.index ⟨(i 0).val / 2000, ht⟩ (1 : Fin 2) * 1 ≤ (i 1).val ∧ (i 1).val < win1_13.index ⟨(i 0).val / 2000, ht⟩ (1 : Fin 2) * 1 + 1; omega

/-- After the second pallas_call's fifty grid points the output array holds the network's output column. -/
theorem region1_value (c : Dev nD) : (dat1 (F := Ideal) V c).arrAt 13 cfg1.N = G1 V c :=
  (dat1 (F := Ideal) V c).arrAt_eq_of_cover 13 (G1 V c) (fun t _ => flushed_eq V c t) covered

end Cert.KernelIdeal.Region1

end
-- ==== Proof.RefValue.lean ====
import proofs.«100888_j64295660421273_1_alg».proof.Proof.Gen.ReferenceIdeal.Read
import proofs.«100888_j64295660421273_1_alg».proof.Proof.SageSpec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Idealize.ShloMosaic Idealize.ShloMosaic.TcCoe Idealize.SL.Sem Idealize.ShloMosaic.ValueIdx
open Cert.ReferenceIdeal Cert.ReferenceIdeal.Read

variable (x0 : (⟨S100000x11, .f32⟩ : BufTy).Contents (Elt Ideal)) (x1 : (⟨S2x3200000, .i32⟩ : BufTy).Contents (Elt Ideal)) (x2 : (⟨S11x32, .f32⟩ : BufTy).Contents (Elt Ideal)) (x3 : (⟨S32, .f32⟩ : BufTy).Contents (Elt Ideal)) (x4 : (⟨S11x32, .f32⟩ : BufTy).Contents (Elt Ideal))
  (x5 x6 x7 x8 : (⟨S32, .f32⟩ : BufTy).Contents (Elt Ideal))
  (x9 : (⟨S32x32, .f32⟩ : BufTy).Contents (Elt Ideal)) (x10 : (⟨S32, .f32⟩ : BufTy).Contents (Elt Ideal)) (x11 : (⟨S32x32, .f32⟩ : BufTy).Contents (Elt Ideal)) (x12 x13 x14 x15 : (⟨S32, .f32⟩ : BufTy).Contents (Elt Ideal))
  (x16 : (⟨S32x64, .f32⟩ : BufTy).Contents (Elt Ideal)) (x17 : (⟨S64, .f32⟩ : BufTy).Contents (Elt Ideal)) (x18 : (⟨S64x1, .f32⟩ : BufTy).Contents (Elt Ideal)) (x19 : (⟨S1, .f32⟩ : BufTy).Contents (Elt Ideal))

/-! ### Where the composed index maps of the reference's layout operations land

A vector of per-feature parameters (a bias, a running mean or variance, a scale, a shift) is first made a one-row
matrix and then repeated over all rows: the entry read at `(n, j)` is the vector's entry `j`. The floored degree is
first made a one-column matrix and then repeated over all columns: the entry read at `(n, k)` is the vector's entry
`n`. A product of matrices at `(n, j)` reads its left factor at `(n, k)` and its right factor at `(k, j)`. -/

/-- One entry of a hidden layer, as the reference computes it from the three summands `a`, `b`, `c` of the
    pre-activation: subtract the running mean, multiply by the inverse deviation, then by the scale, add the shift,
    and take the maximum with zero. At the extended reals every operation is the exact one, so this is the
    normalised and rectified value of `a + b + c`. -/
theorem bn_entry (a b c mu var g be : EReal) :
    FloatOps.maximumf (F := Ideal) (φ := .f32)
      (FloatOps.addf (F := Ideal) (φ := .f32)
        (FloatOps.mulf (F := Ideal) (φ := .f32)
          (FloatOps.mulf (F := Ideal) (φ := .f32)
            (FloatOps.subf (F := Ideal) (φ := .f32)
              (FloatOps.addf (F := Ideal) (φ := .f32) (FloatOps.addf (F := Ideal) (φ := .f32) a b) c) mu)
            (FloatOps.hostUnary (F := Ideal) (φ := .f32) .rsqrt
              (FloatOps.addf (F := Ideal) (φ := .f32) var (FloatOps.ofBits (F := Ideal) .f32 0x3727C5AC#32))))
          g)
        be)
      (FloatOps.ofBits (F := Ideal) .f32 0x00000000#32) = Sage.bnRelu (a + b + c) mu var g be := rfl

section layer1

/-- The first bias, repeated over the rows, is read at the column. -/
theorem col_v24 (n : Fin 100000) (j : Fin 32) : idx_main_v23 (idx_main_v24 (ix2 n j)) = ix1 j :=
  funext fun a => Fin.ext (by match a with | ⟨0, _⟩ => rfl)

/-- The first running mean, repeated over the rows, is read at the column. -/
theorem col_v29 (n : Fin 100000) (j : Fin 32) : idx_main_v28 (idx_main_v29 (ix2 n j)) = ix1 j :=
  funext fun a => Fin.ext (by match a with | ⟨0, _⟩ => rfl)

/-- The first inverse deviation, repeated over the rows, is read at the column. -/
theorem col_v35 (n : Fin 100000) (j : Fin 32) : idx_main_v34 (idx_main_v35 (ix2 n j)) = ix1 j :=
  funext fun a => Fin.ext (by match a with | ⟨0, _⟩ => rfl)

/-- The first scale, repeated over the rows, is read at the column. -/
theorem col_v38 (n : Fin 100000) (j : Fin 32) : idx_main_v37 (idx_main_v38 (ix2 n j)) = ix1 j :=
  funext fun a => Fin.ext (by match a with | ⟨0, _⟩ => rfl)

/-- The first shift, repeated over the rows, is read at the column. -/
theorem col_v41 (n : Fin 100000) (j : Fin 32) : idx_main_v40 (idx_main_v41 (ix2 n j)) = ix1 j :=
  funext fun a => Fin.ext (by match a with | ⟨0, _⟩ => rfl)

/-- The floored degree, repeated over the eleven input features, is read at the row. -/
theorem row_v20 (n : Fin 100000) (k : Fin 11) : idx_main_v19 (idx_main_v20 (ix2 n k)) = ix1 n :=
  funext fun a => Fin.ext (by match a with | ⟨0, _⟩ => rfl)

/-- The product with the first neighbour weights reads the neighbour mean at `(n, k)`. -/
theorem lhs_v22 (n : Fin 100000) (j : Fin 32) (k : Fin 11) : lidx_main_v22 (ix2 n j) k = ix2 n k :=
  funext fun a => Fin.ext (by match a with | ⟨0, _⟩ => rfl | ⟨1, _⟩ => rfl)

/-- The product with the first neighbour weights reads the weights at `(k, j)`. -/
theorem rhs_v22 (n : Fin 100000) (j : Fin 32) (k : Fin 11) : ridx_main_v22 (ix2 n j) k = ix2 k j :=
  funext fun a => Fin.ext (by match a with | ⟨0, _⟩ => rfl | ⟨1, _⟩ => rfl)

/-- The product with the first root weights reads the node features at `(n, k)`. -/
theorem lhs_v26 (n : Fin 100000) (j : Fin 32) (k : Fin 11) : lidx_main_v26 (ix2 n j) k = ix2 n k :=
  funext fun a => Fin.ext (by match a with | ⟨0, _⟩ => rfl | ⟨1, _⟩ => rfl)

/-- The product with the first root weights reads the weights at `(k, j)`. -/
theorem rhs_v26 (n : Fin 100000) (j : Fin 32) (k : Fin 11) : ridx_main_v26 (ix2 n j) k = ix2 k j :=
  funext fun a => Fin.ext (by match a with | ⟨0, _⟩ => rfl | ⟨1, _⟩ => rfl)

/-- An entry of the first neighbour mean: the summed messages of node `n` divided by the maximum of one and the
    node's degree. -/
theorem mean_v21 (n : Fin 100000) (k : Fin 11) :
    val_main_v21 (F := Ideal) x0 x1 (ix2 n k) =
      Sage.meanDiv (fun n k => val_main_v13 (F := Ideal) x0 x1 (ix2 n k)) (fun n => val_main_v17 (F := Ideal) x1 (ix1 n)) n k := by
  rw [val_main_v21_apply, val_main_v20_apply, val_main_v19_apply, val_main_v18_apply, val_main_call0_v1_apply,
    val_main_call0_v0_apply, val_main_cst_3_apply, row_v20]
  rfl

/-- The first neighbour term at `(n, j)`: the sum over the input features `k` of the neighbour mean at `(n, k)`
    times the neighbour weight at `(k, j)`. -/
theorem agg_v22 (n : Fin 100000) (j : Fin 32) :
    val_main_v22 (F := Ideal) x0 x1 x2 (ix2 n j) =
      ∑ k : Fin 11, Sage.meanDiv (fun n k => val_main_v13 (F := Ideal) x0 x1 (ix2 n k)) (fun n => val_main_v17 (F := Ideal) x1 (ix1 n)) n k * x2 (ix2 k j) := by
  rw [val_main_v22_apply]
  exact Finset.sum_congr rfl fun k _ => by rw [lhs_v22, rhs_v22, mean_v21]

/-- The first root term at `(n, j)`: the sum over the input features `k` of the node feature at `(n, k)` times
    the root weight at `(k, j)`. -/
theorem root_v26 (n : Fin 100000) (j : Fin 32) :
    val_main_v26 (F := Ideal) x0 x4 (ix2 n j) = ∑ k : Fin 11, x0 (ix2 n k) * x4 (ix2 k j) := by
  rw [val_main_v26_apply]
  exact Finset.sum_congr rfl fun k _ => by rw [lhs_v26, rhs_v26]

end layer1

section layer2

/-- The second bias, repeated over the rows, is read at the column. -/
theorem col_v68 (n : Fin 100000) (j : Fin 32) : idx_main_v67 (idx_main_v68 (ix2 n j)) = ix1 j :=
  funext fun a => Fin.ext (by match a with | ⟨0, _⟩ => rfl)

/-- The second running mean, repeated over the rows, is read at the column. -/
theorem col_v73 (n : Fin 100000) (j : Fin 32) : idx_main_v72 (idx_main_v73 (ix2 n j)) = ix1 j :=
  funext fun a => Fin.ext (by match a with | ⟨0, _⟩ => rfl)

/-- The second inverse deviation, repeated over the rows, is read at the column. -/
theorem col_v79 (n : Fin 100000) (j : Fin 32) : idx_main_v78 (idx_main_v79 (ix2 n j)) = ix1 j :=
  funext fun a => Fin.ext (by match a with | ⟨0, _⟩ => rfl)

/-- The second scale, repeated over the rows, is read at the column. -/
theorem col_v82 (n : Fin 100000) (j : Fin 32) : idx_main_v81 (idx_main_v82 (ix2 n j)) = ix1 j :=
  funext fun a => Fin.ext (by match a with | ⟨0, _⟩ => rfl)

/-- The second shift, repeated over the rows, is read at the column. -/
theorem col_v85 (n : Fin 100000) (j : Fin 32) : idx_main_v84 (idx_main_v85 (ix2 n j)) = ix1 j :=
  funext fun a => Fin.ext (by match a with | ⟨0, _⟩ => rfl)

/-- The floored degree, repeated over the thirty-two hidden features, is read at the row. -/
theorem row_v64 (n : Fin 100000) (k : Fin 32) : idx_main_v63 (idx_main_v64 (ix2 n k)) = ix1 n :=
  funext fun a => Fin.ext (by match a with | ⟨0, _⟩ => rfl)

/-- The product with the second neighbour weights reads the neighbour mean at `(n, k)`. -/
theorem lhs_v66 (n : Fin 100000) (j : Fin 32) (k : Fin 32) : lidx_main_v66 (ix2 n j) k = ix2 n k :=
  funext fun a => Fin.ext (by match a with | ⟨0, _⟩ => rfl | ⟨1, _⟩ => rfl)

/-- The product with the second neighbour weights reads the weights at `(k, j)`. -/
theorem rhs_v66 (n : Fin 100000) (j : Fin 32) (k : Fin 32) : ridx_main_v66 (ix2 n j) k = ix2 k j :=
  funext fun a => Fin.ext (by match a with | ⟨0, _⟩ => rfl | ⟨1, _⟩ => rfl)

/-- The product with the second root weights reads the first hidden layer at `(n, k)`. -/
theorem lhs_v70 (n : Fin 100000) (j : Fin 32) (k : Fin 32) : lidx_main_v70 (ix2 n j) k = ix2 n k :=
  funext fun a => Fin.ext (by match a with | ⟨0, _⟩ => rfl | ⟨1, _⟩ => rfl)

/-- The product with the second root weights reads the weights at `(k, j)`. -/
theorem rhs_v70 (n : Fin 100000) (j : Fin 32) (k : Fin 32) : ridx_main_v70 (ix2 n j) k = ix2 k j :=
  funext fun a => Fin.ext (by match a with | ⟨0, _⟩ => rfl | ⟨1, _⟩ => rfl)

/-- An entry of the second neighbour mean: the summed hidden messages of node `n` divided by the maximum of one and
    the node's degree. -/
theorem mean_v65 (n : Fin 100000) (k : Fin 32) :
    val_main_v65 (F := Ideal) x0 x1 x2 x3 x4 x5 x6 x7 x8 (ix2 n k) =
      Sage.meanDiv (fun n k => val_main_v57 (F := Ideal) x0 x1 x2 x3 x4 x5 x6 x7 x8 (ix2 n k)) (fun n => val_main_v61 (F := Ideal) x1 (ix1 n)) n k := by
  rw [val_main_v65_apply, val_main_v64_apply, val_main_v63_apply, val_main_v62_apply, val_main_call2_v1_apply,
    val_main_call2_v0_apply, val_main_cst_10_apply, row_v64]
  rfl

/-- The second neighbour term at `(n, j)`: the sum over the hidden features `k` of the neighbour mean at `(n, k)`
    times the neighbour weight at `(k, j)`. -/
theorem agg_v66 (n : Fin 100000) (j : Fin 32) :
    val_main_v66 (F := Ideal) x0 x1 x2 x3 x4 x5 x6 x7 x8 x9 (ix2 n j) =
      ∑ k : Fin 32, Sage.meanDiv (fun n k => val_main_v57 (F := Ideal) x0 x1 x2 x3 x4 x5 x6 x7 x8 (ix2 n k)) (fun n => val_main_v61 (F := Ideal) x1 (ix1 n)) n k * x9 (ix2 k j) := by
  rw [val_main_v66_apply]
  exact Finset.sum_congr rfl fun k _ => by rw [lhs_v66, rhs_v66, mean_v65]

/-- The second root term at `(n, j)`: the sum over the hidden features `k` of the first hidden layer at `(n, k)`
    times the root weight at `(k, j)`. -/
theorem root_v70 (n : Fin 100000) (j : Fin 32) :
    val_main_v70 (F := Ideal) x0 x1 x2 x3 x4 x5 x6 x7 x8 x11 (ix2 n j) =
      ∑ k : Fin 32, val_main_v43 (F := Ideal) x0 x1 x2 x3 x4 x5 x6 x7 x8 (ix2 n k) * x11 (ix2 k j) := by
  rw [val_main_v70_apply]
  exact Finset.sum_congr rfl fun k _ => by rw [lhs_v70, rhs_v70]

end layer2

section head

/-- The output column is read as a vector: entry `n` of the vector is entry `(n, 0)` of the column (a row number
    divided by the column's single extent is the row number). -/
theorem out_v97 (n : Fin 100000) : idx_main_v97 (ix1 n) = ix2 n (0 : Fin 1) :=
  funext fun a => Fin.ext (by match a with | ⟨0, _⟩ => exact Nat.div_one _ | ⟨1, _⟩ => rfl)

/-- The output bias, made a one-by-one matrix and repeated over the rows, is read at its only entry. -/
theorem one_v95 (n : Fin 100000) : idx_main_v94 (idx_main_v95 (ix2 n (0 : Fin 1))) = ix1 (0 : Fin 1) :=
  funext fun a => Fin.ext (by match a with | ⟨0, _⟩ => rfl)

/-- The hidden bias of the head, repeated over the rows, is read at the column. -/
theorem col_v90 (n : Fin 100000) (q : Fin 64) : idx_main_v89 (idx_main_v90 (ix2 n q)) = ix1 q :=
  funext fun a => Fin.ext (by match a with | ⟨0, _⟩ => rfl)

/-- The head's first product reads the second hidden layer at `(n, k)`. -/
theorem lhs_v88 (n : Fin 100000) (q : Fin 64) (k : Fin 32) : lidx_main_v88 (ix2 n q) k = ix2 n k :=
  funext fun a => Fin.ext (by match a with | ⟨0, _⟩ => rfl | ⟨1, _⟩ => rfl)

/-- The head's first product reads its weights at `(k, q)`. -/
theorem rhs_v88 (n : Fin 100000) (q : Fin 64) (k : Fin 32) : ridx_main_v88 (ix2 n q) k = ix2 k q :=
  funext fun a => Fin.ext (by match a with | ⟨0, _⟩ => rfl | ⟨1, _⟩ => rfl)

/-- The head's second product reads the rectified hidden units at `(n, q)`. -/
theorem lhs_v93 (n : Fin 100000) (q : Fin 64) : lidx_main_v93 (ix2 n (0 : Fin 1)) q = ix2 n q :=
  funext fun a => Fin.ext (by match a with | ⟨0, _⟩ => rfl | ⟨1, _⟩ => rfl)

/-- The head's second product reads its weights at `(q, 0)`. -/
theorem rhs_v93 (n : Fin 100000) (q : Fin 64) : ridx_main_v93 (ix2 n (0 : Fin 1)) q = ix2 q (0 : Fin 1) :=
  funext fun a => Fin.ext (by match a with | ⟨0, _⟩ => rfl | ⟨1, _⟩ => rfl)

/-- The head's first product at `(n, q)`: the sum over the hidden features `k` of the second hidden layer at
    `(n, k)` times the weight at `(k, q)`. -/
theorem prod_v88 (n : Fin 100000) (q : Fin 64) :
    val_main_v88 (F := Ideal) x0 x1 x2 x3 x4 x5 x6 x7 x8 x9 x10 x11 x12 x13 x14 x15 x16 (ix2 n q) =
      ∑ k : Fin 32, val_main_v87 (F := Ideal) x0 x1 x2 x3 x4 x5 x6 x7 x8 x9 x10 x11 x12 x13 x14 x15 (ix2 n k) * x16 (ix2 k q) := by
  rw [val_main_v88_apply]
  exact Finset.sum_congr rfl fun k _ => by rw [lhs_v88, rhs_v88]

/-- A rectified hidden unit of the head at `(n, q)`: the maximum of zero and the first product plus the bias. -/
theorem hid_v92 (n : Fin 100000) (q : Fin 64) :
    val_main_v92 (F := Ideal) x0 x1 x2 x3 x4 x5 x6 x7 x8 x9 x10 x11 x12 x13 x14 x15 x16 x17 (ix2 n q) =
      max ((∑ k : Fin 32, val_main_v87 (F := Ideal) x0 x1 x2 x3 x4 x5 x6 x7 x8 x9 x10 x11 x12 x13 x14 x15 (ix2 n k) * x16 (ix2 k q)) + x17 (ix1 q)) Sage.zero := by
  rw [val_main_v92_apply, val_main_v91_apply, prod_v88, val_main_v90_apply, val_main_v89_apply, col_v90,
    val_main_call4_v0_apply, val_main_call4_cst_apply]
  rfl

/-- The head's second product at `(n, 0)`: the sum over the hidden units `q` of the rectified unit at `(n, q)`
    times the output weight at `(q, 0)`. -/
theorem sum_v93 (n : Fin 100000) :
    val_main_v93 (F := Ideal) x0 x1 x2 x3 x4 x5 x6 x7 x8 x9 x10 x11 x12 x13 x14 x15 x16 x17 x18 (ix2 n (0 : Fin 1)) =
      ∑ q : Fin 64, max ((∑ k : Fin 32, val_main_v87 (F := Ideal) x0 x1 x2 x3 x4 x5 x6 x7 x8 x9 x10 x11 x12 x13 x14 x15 (ix2 n k) * x16 (ix2 k q)) + x17 (ix1 q)) Sage.zero
        * x18 (ix2 q (0 : Fin 1)) := by
  rw [val_main_v93_apply]
  exact Finset.sum_congr rfl fun q _ => by rw [lhs_v93, rhs_v93, hid_v92]

end head

/-- The reference's first hidden layer, index by index: the SAGE layer of the neighbour mean (the summed messages
    divided by the floored degree) and the node features, normalised and rectified. -/
theorem ref_layer1 :
    val_main_v43 (F := Ideal) x0 x1 x2 x3 x4 x5 x6 x7 x8 = fun i =>
      Sage.layer
        (Sage.meanDiv (fun n k => val_main_v13 (F := Ideal) x0 x1 (ix2 n k)) (fun n => val_main_v17 (F := Ideal) x1 (ix1 n)))
        (fun n k => x0 (ix2 n k)) (fun k j => x2 (ix2 k j)) (fun k j => x4 (ix2 k j))
        (fun j => x3 (ix1 j)) (fun j => x7 (ix1 j)) (fun j => x8 (ix1 j)) (fun j => x5 (ix1 j)) (fun j => x6 (ix1 j))
        ⟨(i 0).val, (i 0).isLt⟩ ⟨(i 1).val, (i 1).isLt⟩ := by
  funext i
  obtain ⟨n, j, rfl⟩ : ∃ (n : Fin 100000) (j : Fin 32), i = ix2 n j := ⟨i 0, i 1, eq_ix2 i⟩
  rw [val_main_v43_apply, val_main_v42_apply, val_main_v41_apply, val_main_v40_apply, col_v41, val_main_v39_apply,
    val_main_v38_apply, val_main_v37_apply, col_v38, val_main_v36_apply, val_main_v35_apply, val_main_v34_apply,
    col_v35, val_main_v33_apply, val_main_v32_apply, val_main_v31_apply, val_main_cst_4_apply, val_main_v30_apply,
    val_main_v29_apply, val_main_v28_apply, col_v29, val_main_v27_apply, root_v26, val_main_v25_apply,
    val_main_v24_apply, val_main_v23_apply, col_v24, agg_v22, val_main_call1_v0_apply, val_main_call1_cst_apply]
  exact bn_entry _ _ _ _ _ _ _

/-- The reference's second hidden layer, index by index, over its first hidden layer and the messages summed from it. -/
theorem ref_layer2 :
    val_main_v87 (F := Ideal) x0 x1 x2 x3 x4 x5 x6 x7 x8 x9 x10 x11 x12 x13 x14 x15 = fun i =>
      Sage.layer
        (Sage.meanDiv (fun n k => val_main_v57 (F := Ideal) x0 x1 x2 x3 x4 x5 x6 x7 x8 (ix2 n k)) (fun n => val_main_v61 (F := Ideal) x1 (ix1 n)))
        (fun n k => val_main_v43 (F := Ideal) x0 x1 x2 x3 x4 x5 x6 x7 x8 (ix2 n k)) (fun k j => x9 (ix2 k j)) (fun k j => x11 (ix2 k j))
        (fun j => x10 (ix1 j)) (fun j => x14 (ix1 j)) (fun j => x15 (ix1 j)) (fun j => x12 (ix1 j)) (fun j => x13 (ix1 j))
        ⟨(i 0).val, (i 0).isLt⟩ ⟨(i 1).val, (i 1).isLt⟩ := by
  funext i
  obtain ⟨n, j, rfl⟩ : ∃ (n : Fin 100000) (j : Fin 32), i = ix2 n j := ⟨i 0, i 1, eq_ix2 i⟩
  rw [val_main_v87_apply, val_main_v86_apply, val_main_v85_apply, val_main_v84_apply, col_v85, val_main_v83_apply,
    val_main_v82_apply, val_main_v81_apply, col_v82, val_main_v80_apply, val_main_v79_apply, val_main_v78_apply,
    col_v79, val_main_v77_apply, val_main_v76_apply, val_main_v75_apply, val_main_cst_11_apply, val_main_v74_apply,
    val_main_v73_apply, val_main_v72_apply, col_v73, val_main_v71_apply, root_v70, val_main_v69_apply,
    val_main_v68_apply, val_main_v67_apply, col_v68, agg_v66, val_main_call3_v0_apply, val_main_call3_cst_apply]
  exact bn_entry _ _ _ _ _ _ _

/-- The reference's result, index by index: the perceptron head over its second hidden layer, the output column read
    as a vector. -/
theorem ref_head :
    val_main_v97 (F := Ideal) x0 x1 x2 x3 x4 x5 x6 x7 x8 x9 x10 x11 x12 x13 x14 x15 x16 x17 x18 x19 = fun i =>
      Sage.head (fun n k => val_main_v87 (F := Ideal) x0 x1 x2 x3 x4 x5 x6 x7 x8 x9 x10 x11 x12 x13 x14 x15 (ix2 n k))
        (fun k q => x16 (ix2 k q)) (fun q => x17 (ix1 q)) (fun q p => x18 (ix2 q p)) (fun p => x19 (ix1 p))
        ⟨(i 0).val, (i 0).isLt⟩ (0 : Fin 1) := by
  funext i
  obtain ⟨n, rfl⟩ : ∃ n : Fin 100000, i = ix1 n := ⟨i 0, eq_ix1 i⟩
  rw [val_main_v97_apply, out_v97, val_main_v96_apply, sum_v93, val_main_v95_apply, val_main_v94_apply, one_v95]
  rfl

end Cert.ReferenceIdeal.RefValue

end
-- ==== Proof.HostLayout.lean ====
/-
  The host-side layout steps around the two pallas_calls, each read at an index, for any extents:
  a vector viewed as one row; one column viewed as a vector; and the kernel's neighbour mean — the summed messages
  times the reciprocal of the floored degree, the reciprocal broadcast first to a column and then across the
  feature axis — which at node n, feature k is `Sage.meanMul` of the two arrays.
-/
import proofs.«100888_j64295660421273_1_alg».proof.Proof.SageSpec
import Idealize.ShloMosaic.Lib.Pipeline.Value
import Idealize.ShloMosaic.Lib.ValueIdx

noncomputable section

namespace Cert.Sage

open Idealize.ShloMosaic Idealize.ShloMosaic.ValueIdx

/-- A length-J vector reshaped to ONE row: entry (0, j) of the row is entry j of the vector. -/
theorem row_apply {α : Type} {J : Nat} (x : (⟨1, ![J]⟩ : Shape).Idx → α)
    (h : (⟨1, ![J]⟩ : Shape).ShapeCasts ⟨2, ![1, J]⟩) (j : Fin J) :
    shapeCast (⟨2, ![1, J]⟩ : Shape) x h (ix2 (0 : Fin 1) j) = x (ix1 j) :=
  shapeCast_apply x h (ix2 (0 : Fin 1) j) (ix1 j) (by
    rw [Shape.rowMajor_val_two, Shape.rowMajor_val_one]
    show j.val = 0 * J + j.val
    omega)

/-- An N×1 column reshaped to a vector: entry n of the vector is entry (n, 0) of the column. -/
theorem col_apply {α : Type} {N : Nat} (x : (⟨2, ![N, 1]⟩ : Shape).Idx → α)
    (h : (⟨2, ![N, 1]⟩ : Shape).ShapeCasts ⟨1, ![N]⟩) (n : Fin N) :
    shapeCast (⟨1, ![N]⟩ : Shape) x h (ix1 n) = x (ix2 n (0 : Fin 1)) :=
  shapeCast_apply x h (ix1 n) (ix2 n (0 : Fin 1)) (by
    rw [Shape.rowMajor_val_two, Shape.rowMajor_val_one]
    show n.val * 1 + 0 = n.val
    omega)

/-- The kernel's neighbour mean at node n, feature k: the summed messages there, times the reciprocal of the node's
    floored degree (the reciprocal is computed per node, laid out as a column and repeated across the features). -/
theorem mean_bcast_apply {N K : Nat} (S : FVec Ideal ⟨2, ![N, K]⟩ .f32) (d : FVec Ideal ⟨1, ![N]⟩ .f32)
    (h2 : (⟨2, ![N, 1]⟩ : Shape).BroadcastsInDim ⟨2, ![N, K]⟩ ![0, 1])
    (h1 : (⟨1, ![N]⟩ : Shape).BroadcastsInDim ⟨2, ![N, 1]⟩ ![0])
    (h0 : (⟨0, ![]⟩ : Shape).BroadcastsInDim ⟨1, ![N]⟩ ![])
    (hN : N ≠ 1) (n : Fin N) (k : Fin K) :
    mulf S (broadcastInDim ⟨2, ![N, K]⟩ ![0, 1] h2 (broadcastInDim ⟨2, ![N, 1]⟩ ![0] h1
      (Host.divf (broadcastInDim ⟨1, ![N]⟩ ![] h0 (constant (F := Ideal) ⟨0, ![]⟩ .f32 0x3F800000#32))
        (maximumf d (broadcastInDim ⟨1, ![N]⟩ ![] h0 (constant (F := Ideal) ⟨0, ![]⟩ .f32 0x3F800000#32))))))
      (ix2 n k)
    = meanMul (fun n k => S (ix2 n k)) (fun n => d (ix1 n)) n k := by
  show S (ix2 n k) * _ = _
  rw [broadcastInDim_apply ![0, 1] h2 _ (ix2 n k) (ix2 n (0 : Fin 1)) (fun a => match a with
      | ⟨0, _⟩ => by show n.val = if N = 1 then 0 else n.val; rw [if_neg hN]
      | ⟨1, _⟩ => by show 0 = if (1 : Nat) = 1 then 0 else k.val; rw [if_pos rfl]),
    broadcastInDim_apply ![0] h1 _ (ix2 n (0 : Fin 1)) (ix1 n) (fun a => match a with
      | ⟨0, _⟩ => by show n.val = if N = 1 then 0 else n.val; rw [if_neg hN])]
  -- a scalar repeated along the node axis is that scalar at every node
  rfl

end Cert.Sage

end
-- ==== Proof.KernelValue.lean ====
/-
  The idealized kernel's result IS the reference's result of the same arguments.
  The first pallas_call leaves `Sage.layer` of what it finds; what it finds is the arguments and the kernel's neighbour
  mean of the summed messages, which is the reference's neighbour mean (`Sage.meanMul_eq_meanDiv`): so it leaves the
  reference's first hidden layer.  The second host stretch then gathers and sums THAT array exactly as the reference
  does, the second pallas_call leaves `Sage.head` of `Sage.layer` of what it finds, and the closing reshape reads the
  output column as a vector: the reference's result.
-/
import proofs.«100888_j64295660421273_1_alg».proof.Proof.KernelHost
import proofs.«100888_j64295660421273_1_alg».proof.Proof.Region0Value
import proofs.«100888_j64295660421273_1_alg».proof.Proof.Region1Value
import proofs.«100888_j64295660421273_1_alg».proof.Proof.RefValue
import proofs.«100888_j64295660421273_1_alg».proof.Proof.HostLayout

set_option maxRecDepth 16384

noncomputable section

namespace Cert.KernelIdeal.Whole

open Idealize.ShloMosaic Idealize.ShloMosaic.TcCoe Idealize.SL.Sem Idealize.ShloMosaic.StableHlo
open Idealize.ShloMosaic.ValueIdx
open Cert.KernelIdeal Cert.KernelIdeal.Gen
open Cert.ReferenceIdeal.Read Cert.ReferenceIdeal.RefValue

variable (m : (ℓ : Loc nD τ sig) → Buf (Elt Ideal) ℓ) (ρ : Dev nD → PrngReg) (c : Dev nD)

/-- The first pallas_call leaves the reference's first hidden layer of the same arguments. -/
theorem layer1_eq : Region0.G0 (V1 m ρ) c = val_main_v43 (F := Ideal) (a0 m c) (a1 m c) (a2 m c) (a3 m c) (a4 m c) (a5 m c) (a6 m c) (a7 m c) (a8 m c) := by
  rw [ref_layer1]
  funext i
  unfold Region0.G0
  have hagg : (fun (n : Fin 100000) (k : Fin 11) => Region0.aggA (V1 m ρ) c (ix2 n k)) =
      Sage.meanDiv (fun n k => val_main_v13 (F := Ideal) (a0 m c) (a1 m c) (ix2 n k)) (fun n => val_main_v17 (F := Ideal) (a1 m c) (ix1 n)) := by
    rw [← Sage.meanMul_eq_meanDiv]
    funext n k
    show (V1 m ρ c main_v24 : (⟨S100000x11, .f32⟩ : BufTy).Contents (Elt Ideal)) (ix2 n k) = _
    rw [enter0_mean]
    exact Sage.mean_bcast_apply _ _ _ _ _ (by decide) n k
  have hx : Region0.xA (V1 m ρ) c = a0 m c := enter0_x m ρ c
  have hwl : Region0.wlA (V1 m ρ) c = a2 m c := enter0_wl m ρ c
  have hwr : Region0.wrA (V1 m ρ) c = a4 m c := enter0_wr m ρ c
  have hbl : (fun j : Fin 32 => Region0.blA (V1 m ρ) c (ix2 0 j)) = fun j => a3 m c (ix1 j) := by
    funext j
    show (V1 m ρ c main_v25 : (⟨S1x32, .f32⟩ : BufTy).Contents (Elt Ideal)) (ix2 0 j) = _
    rw [enter0_v25]
    exact Sage.row_apply _ _ j
  have hg : (fun j : Fin 32 => Region0.gA (V1 m ρ) c (ix2 0 j)) = fun j => a5 m c (ix1 j) := by
    funext j
    show (V1 m ρ c main_v26 : (⟨S1x32, .f32⟩ : BufTy).Contents (Elt Ideal)) (ix2 0 j) = _
    rw [enter0_v26]
    exact Sage.row_apply _ _ j
  have hbe : (fun j : Fin 32 => Region0.beA (V1 m ρ) c (ix2 0 j)) = fun j => a6 m c (ix1 j) := by
    funext j
    show (V1 m ρ c main_v27 : (⟨S1x32, .f32⟩ : BufTy).Contents (Elt Ideal)) (ix2 0 j) = _
    rw [enter0_v27]
    exact Sage.row_apply _ _ j
  have hmu : (fun j : Fin 32 => Region0.muA (V1 m ρ) c (ix2 0 j)) = fun j => a7 m c (ix1 j) := by
    funext j
    show (V1 m ρ c main_v28 : (⟨S1x32, .f32⟩ : BufTy).Contents (Elt Ideal)) (ix2 0 j) = _
    rw [enter0_v28]
    exact Sage.row_apply _ _ j
  have hvar : (fun j : Fin 32 => Region0.varA (V1 m ρ) c (ix2 0 j)) = fun j => a8 m c (ix1 j) := by
    funext j
    show (V1 m ρ c main_v29 : (⟨S1x32, .f32⟩ : BufTy).Contents (Elt Ideal)) (ix2 0 j) = _
    rw [enter0_v29]
    exact Sage.row_apply _ _ j
  rw [hagg, hx, hwl, hwr, hbl, hmu, hvar, hg, hbe]

/-- So the first layer's activations, as the first pallas_call leaves them, are the reference's. -/
theorem exit0_h : W2 m ρ c (Proc.devRef .tc main_v30) = val_main_v43 (F := Ideal) (a0 m c) (a1 m c) (a2 m c) (a3 m c) (a4 m c) (a5 m c) (a6 m c) (a7 m c) (a8 m c) :=
  (W2_arr m ρ c 9).trans ((Region0.region0_value (V1 m ρ) c).trans (layer1_eq m ρ c))

/-- The second pallas_call leaves, at node n, the reference's result at n. -/
theorem out_eq (n : Fin 100000) :
    Region1.G1 (V3 m ρ) c (ix2 n (0 : Fin 1)) = val_main_v97 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (ix1 n) := by
  rw [ref_head, ref_layer2]
  unfold Region1.G1
  have hagg : (fun (n : Fin 100000) (k : Fin 32) => Region1.aggA (V3 m ρ) c (ix2 n k)) =
      Sage.meanDiv (fun n k => val_main_v57 (F := Ideal) (a0 m c) (a1 m c) (a2 m c) (a3 m c) (a4 m c) (a5 m c) (a6 m c) (a7 m c) (a8 m c) (ix2 n k)) (fun n => val_main_v61 (F := Ideal) (a1 m c) (ix1 n)) := by
    rw [← Sage.meanMul_eq_meanDiv]
    funext n k
    show (V3 m ρ c main_v43 : (⟨S100000x32, .f32⟩ : BufTy).Contents (Elt Ideal)) (ix2 n k) = _
    rw [enter1_mean_of m ρ c (exit0_h m ρ c)]
    exact Sage.mean_bcast_apply _ _ _ _ _ (by decide) n k
  have hh : Region1.hA (V3 m ρ) c = val_main_v43 (F := Ideal) (a0 m c) (a1 m c) (a2 m c) (a3 m c) (a4 m c) (a5 m c) (a6 m c) (a7 m c) (a8 m c) := (enter1_h m ρ c).trans (exit0_h m ρ c)
  have hwl : Region1.wlA (V3 m ρ) c = a9 m c := enter1_arg9 m ρ c
  have hwr : Region1.wrA (V3 m ρ) c = a11 m c := enter1_arg11 m ρ c
  have hw1 : Region1.w1A (V3 m ρ) c = a16 m c := enter1_arg16 m ρ c
  have hw2 : Region1.w2A (V3 m ρ) c = a18 m c := enter1_arg18 m ρ c
  have hbl : (fun j : Fin 32 => Region1.blA (V3 m ρ) c (ix2 0 j)) = fun j => a10 m c (ix1 j) := by
    funext j
    show (V3 m ρ c main_v44 : (⟨S1x32, .f32⟩ : BufTy).Contents (Elt Ideal)) (ix2 0 j) = _
    rw [enter1_v44]
    exact Sage.row_apply _ _ j
  have hg : (fun j : Fin 32 => Region1.gA (V3 m ρ) c (ix2 0 j)) = fun j => a12 m c (ix1 j) := by
    funext j
    show (V3 m ρ c main_v45 : (⟨S1x32, .f32⟩ : BufTy).Contents (Elt Ideal)) (ix2 0 j) = _
    rw [enter1_v45]
    exact Sage.row_apply _ _ j
  have hbe : (fun j : Fin 32 => Region1.beA (V3 m ρ) c (ix2 0 j)) = fun j => a13 m c (ix1 j) := by
    funext j
    show (V3 m ρ c main_v46 : (⟨S1x32, .f32⟩ : BufTy).Contents (Elt Ideal)) (ix2 0 j) = _
    rw [enter1_v46]
    exact Sage.row_apply _ _ j
  have hmu : (fun j : Fin 32 => Region1.muA (V3 m ρ) c (ix2 0 j)) = fun j => a14 m c (ix1 j) := by
    funext j
    show (V3 m ρ c main_v47 : (⟨S1x32, .f32⟩ : BufTy).Contents (Elt Ideal)) (ix2 0 j) = _
    rw [enter1_v47]
    exact Sage.row_apply _ _ j
  have hvar : (fun j : Fin 32 => Region1.varA (V3 m ρ) c (ix2 0 j)) = fun j => a15 m c (ix1 j) := by
    funext j
    show (V3 m ρ c main_v48 : (⟨S1x32, .f32⟩ : BufTy).Contents (Elt Ideal)) (ix2 0 j) = _
    rw [enter1_v48]
    exact Sage.row_apply _ _ j
  have hb1 : (fun j : Fin 64 => Region1.b1A (V3 m ρ) c (ix2 0 j)) = fun j => a17 m c (ix1 j) := by
    funext j
    show (V3 m ρ c main_v49 : (⟨S1x64, .f32⟩ : BufTy).Contents (Elt Ideal)) (ix2 0 j) = _
    rw [enter1_v49]
    exact Sage.row_apply _ _ j
  have hb2 : (fun j : Fin 1 => Region1.b2A (V3 m ρ) c (ix2 0 j)) = fun j => a19 m c (ix1 j) := by
    funext j
    show (V3 m ρ c main_v50 : (⟨S1x1, .f32⟩ : BufTy).Contents (Elt Ideal)) (ix2 0 j) = _
    rw [enter1_v50]
    exact Sage.row_apply _ _ j
  rw [hagg, hh, hwl, hwr, hw1, hw2, hbl, hmu, hvar, hg, hbe, hb1, hb2]

/-- THE KERNEL'S RESULT: the result buffer ends holding the reference's result of the same arguments. -/
theorem result_eq :
    (W5 m ρ c (Proc.devRef .tc main_v52) : (⟨S100000, .f32⟩ : BufTy).Contents (Elt Ideal)) = val_main_v97 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) := by
  rw [result_reshape]
  funext i
  obtain ⟨n, rfl⟩ : ∃ n : Fin 100000, i = ix1 n := ⟨i 0, eq_ix1 i⟩
  rw [← out_eq m ρ c n, ← Region1.region1_value (V3 m ρ) c, ← W4_arr m ρ c 13]
  exact Sage.col_apply _ _ n

end Cert.KernelIdeal.Whole

end
-- ==== Proof.lean ====
/-
  Two-layer GraphSAGE with batch normalisation (running statistics), ReLU and a perceptron head, as a Pallas kernel and as
  plain jnp: the certificate that the two are one function over the extended reals.

  Both programs gather each edge's source features, sum them per destination node, take the neighbour mean, and apply
  per layer   max ( ((mean · W_l + b_l + x · W_r) − μ) · rsqrt (σ² + ε) · γ + β , 0 ),   then   max (h · W₁ + b₁, 0) · W₂ + b₂.
  The kernel computes the degree once and multiplies the summed messages by 1 / max (deg, 1); the reference divides them
  by max (1, deg).  The divisor is at least one, hence not zero, and off zero a quotient is the product with the
  inverse: the two means agree on every extended real (`Sage.meanMul_eq_meanDiv`), with no use of the inputs'
  finiteness.  Everything else agrees operation for operation: a change of float format is the identity on the
  extended reals, a matrix product into a zero accumulator is the plain sum of products, and a different tiling of the
  rows (fifty blocks of two thousand) computes the same entries.

  The frames of the two kernel programs are the generated ones; the reference's frame is its generated run with the
  result dropped; there is nothing to preserve (the idealization rewrote no operation).  The value claim takes the
  kernel's run with its result named (the segment fold of @main), reads that result back to the arguments
  (`Whole.result_eq`: it is the reference's last stage of the same arguments), and meets the reference's generated run.
-/
import proofs.«100888_j64295660421273_1_alg».proof.Defs
import proofs.«100888_j64295660421273_1_alg».proof.Proof.Gen.Kernel
import proofs.«100888_j64295660421273_1_alg».proof.Proof.KernelFrame
import proofs.«100888_j64295660421273_1_alg».proof.Proof.Gen.KernelIdeal
import proofs.«100888_j64295660421273_1_alg».proof.Proof.KernelIdealFrame
import proofs.«100888_j64295660421273_1_alg».proof.Proof.KernelIdealRun
import proofs.«100888_j64295660421273_1_alg».proof.Proof.Gen.ReferenceIdeal
import proofs.«100888_j64295660421273_1_alg».proof.Proof.Gen.ReferenceIdeal.Run
import proofs.«100888_j64295660421273_1_alg».proof.Proof.Gen.ReferenceIdeal.Read
import proofs.«100888_j64295660421273_1_alg».proof.Proof.Gen.Pre_finite_inputs
import proofs.«100888_j64295660421273_1_alg».proof.Proof.KernelValue
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the twenty arguments both programs end with the same result: the kernel's result buffer
    holds the reference's last stage of the kernel's arguments, and the reference's run ends at that stage of its own,
    equal, arguments. -/
theorem algebraic : Cert.algebraic_KernelIdeal_ReferenceIdeal := by
  intro m ρ m' ρ' _ hagree
  refine ⟨fun c => Cert.KernelIdeal.Gen.W5 m ρ c (Proc.devRef .tc Cert.KernelIdeal.main_v52),
    Cert.KernelIdeal.Gen.run_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19⟩ := hagree c
  rw [Cert.ReferenceIdeal.Read.val_main_v97_eq, h0, h1, h2, h3, h4, h5, h6, h7, h8, h9, h10, h11, h12, h13, h14, h15, h16, h17, h18, h19]
  exact (Cert.KernelIdeal.Whole.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
